-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x1024 : Shape := ⟨3, ![32, 4096, 1024]⟩
abbrev S32x1024 : Shape := ⟨2, ![32, 1024]⟩
abbrev S32x512x2 : Shape := ⟨3, ![32, 512, 2]⟩
abbrev S2x3072 : Shape := ⟨2, ![2, 3072]⟩
abbrev S2 : Shape := ⟨1, ![2]⟩
abbrev S_ : Shape := ⟨0, ![]⟩

class Facts : Prop where
  bcast_S_S32x4096x1024 : S_.BroadcastsInDim S32x4096x1024 (![] : Fin 0 → Fin S32x4096x1024.rank)
  reducesTo_S32x4096x1024_S_d0_1_2 : S32x4096x1024.ReducesTo [0, 1, 2] S_
  h_S_ : 0 < S_.numel
  bcast_S_S32x1024 : S_.BroadcastsInDim S32x1024 (![] : Fin 0 → Fin S32x1024.rank)
  reducesTo_S32x1024_S_d0_1 : S32x1024.ReducesTo [0, 1] S_
  bcast_S_S2x3072 : S_.BroadcastsInDim S2x3072 (![] : Fin 0 → Fin S2x3072.rank)
  reducesTo_S2x3072_S_d0_1 : S2x3072.ReducesTo [0, 1] S_
  bcast_S_S2 : S_.BroadcastsInDim S2 (![] : Fin 0 → Fin S2.rank)
  reducesTo_S2_S_d0 : S2.ReducesTo [0] S_
  bcast_S_S32x512x2 : S_.BroadcastsInDim S32x512x2 (![] : Fin 0 → Fin S32x512x2.rank)
  reducesTo_S32x512x2_S_d0_1_2 : S32x512x2.ReducesTo [0, 1, 2] S_

variable [Facts]

def fn_part1 {F : FTy → Type} [FloatOps F] (main_arg2 : IVec S32x512x2 32) (main_arg5 : FVec F S2 .f32) (main_v13 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  let main_c_8 : IVec S_ 32 := constantI S_ 32 0#32
  let main_v24 : IVec S32x512x2 32 := broadcastInDim S32x512x2 ![] bcast_S_S32x512x2 main_c_8
  let main_v25 : IVec S32x512x2 1 := cmpi .sge main_arg2 main_v24
  let main_c_9 : IVec S_ 32 := constantI S_ 32 4096#32
  let main_v26 : IVec S32x512x2 32 := broadcastInDim S32x512x2 ![] bcast_S_S32x512x2 main_c_9
  let main_v27 : IVec S32x512x2 1 := cmpi .slt main_arg2 main_v26
  let main_v28 : IVec S32x512x2 1 := andi main_v25 main_v27
  let main_c_10 : IVec S_ 1 := constantI S_ 1 1#1
  let main_v29 : IVec S_ 1 := (fun x v => Host.reduce IntOp.andi x v reducesTo_S32x512x2_S_d0_1_2 h_S_) main_v28 main_c_10
  let main_v30 : IVec S_ 1 := andi main_v23 main_v29
  main_v30

def fn {F : FTy → Type} [FloatOps F] (main_arg0 : FVec F S32x4096x1024 .f32) (main_arg1 : FVec F S32x1024 .f32) (main_arg2 : IVec S32x512x2 32) (main_arg3 : FVec F S2x3072 .f32) (main_arg4 : FVec F S2 .f32) (main_arg5 : FVec F S2 .f32) : IVec S_ 1 :=
  let main_v0 : FVec F S32x4096x1024 .f32 := Host.absf main_arg0
  let main_cst : FVec F S_ .f32 := constant S_ .f32 0x7F800000#32
  let main_v1 : FVec F S32x4096x1024 .f32 := broadcastInDim S32x4096x1024 ![] bcast_S_S32x4096x1024 main_cst
  let main_v2 : IVec S32x4096x1024 1 := cmpf .olt main_v0 main_v1
  let main_c : IVec S_ 1 := constantI S_ 1 1#1
  let main_v3 : IVec S_ 1 := (fun x v => Host.reduce IntOp.andi x v reducesTo_S32x4096x1024_S_d0_1_2 h_S_) main_v2 main_c
  let main_v4 : FVec F S32x1024 .f32 := Host.absf main_arg1
  let main_cst_0 : FVec F S_ .f32 := constant S_ .f32 0x7F800000#32
  let main_v5 : FVec F S32x1024 .f32 := broadcastInDim S32x1024 ![] bcast_S_S32x1024 main_cst_0
  let main_v6 : IVec S32x1024 1 := cmpf .olt main_v4 main_v5
  let main_c_1 : IVec S_ 1 := constantI S_ 1 1#1
  let main_v7 : IVec S_ 1 := (fun x v => Host.reduce IntOp.andi x v reducesTo_S32x1024_S_d0_1 h_S_) main_v6 main_c_1
  let main_v8 : IVec S_ 1 := andi main_v3 main_v7
  let main_v9 : FVec F S2x3072 .f32 := Host.absf main_arg3
  let main_cst_2 : FVec F S_ .f32 := constant S_ .f32 0x7F800000#32
  let main_v10 : FVec F S2x3072 .f32 := broadcastInDim S2x3072 ![] bcast_S_S2x3072 main_cst_2
  let main_v11 : IVec S2x3072 1 := cmpf .olt main_v9 main_v10
  let main_c_3 : IVec S_ 1 := constantI S_ 1 1#1
  let main_v12 : IVec S_ 1 := (fun x v => Host.reduce IntOp.andi x v reducesTo_S2x3072_S_d0_1 h_S_) main_v11 main_c_3
  let main_v13 : IVec S_ 1 := andi main_v8 main_v12
  let main_v14 : FVec F S2 .f32 := Host.absf main_arg4
  let main_cst_4 : FVec F S_ .f32 := constant S_ .f32 0x7F800000#32
  let main_v15 : FVec F S2 .f32 := broadcastInDim S2 ![] bcast_S_S2 main_cst_4
  let main_v16 : IVec S2 1 := cmpf .olt main_v14 main_v15
  fn_part1 (F := F) main_arg2 main_arg5 main_v13 main_v16
-- ==== Kernel.lean ====
abbrev S32x4096x1024 : Shape := ⟨3, ![32, 4096, 1024]⟩
abbrev S32x1024 : Shape := ⟨2, ![32, 1024]⟩
abbrev S32x512x2 : Shape := ⟨3, ![32, 512, 2]⟩
abbrev S2x3072 : Shape := ⟨2, ![2, 3072]⟩
abbrev S2 : Shape := ⟨1, ![2]⟩
abbrev S_ : Shape := ⟨0, ![]⟩
abbrev S32x512x1 : Shape := ⟨3, ![32, 512, 1]⟩
abbrev S32x512 : Shape := ⟨2, ![32, 512]⟩
abbrev S32x1x1024 : Shape := ⟨3, ![32, 1, 1024]⟩
abbrev S2x1024 : Shape := ⟨2, ![2, 1024]⟩
abbrev S1024x2 : Shape := ⟨2, ![1024, 2]⟩
abbrev S1024x6 : Shape := ⟨2, ![1024, 6]⟩
abbrev S1x1x1024 : Shape := ⟨3, ![1, 1, 1024]⟩
abbrev S1x512x1 : Shape := ⟨3, ![1, 512, 1]⟩
abbrev S1x1024x1024 : Shape := ⟨3, ![1, 1024, 1024]⟩
abbrev S1x512x2 : Shape := ⟨3, ![1, 512, 2]⟩
abbrev S512x4 : Shape := ⟨2, ![512, 4]⟩
abbrev S1x1024 : Shape := ⟨2, ![1, 1024]⟩
abbrev S512x1 : Shape := ⟨2, ![512, 1]⟩
abbrev S512x1024 : Shape := ⟨2, ![512, 1024]⟩
abbrev S1024x1024 : Shape := ⟨2, ![1024, 1024]⟩
abbrev S1024x4 : Shape := ⟨2, ![1024, 4]⟩
abbrev S1x2 : Shape := ⟨2, ![1, 2]⟩
abbrev S512x2 : Shape := ⟨2, ![512, 2]⟩

abbrev nBuf : Space → Nat
  | .hbm => 30
  | .vmem => 14
  | .smem => 0
  | _ => 0

abbrev bufTy : (tb : Table) → Fin (tcTables nBuf tb) → BufTy
  | .hbm, ⟨0, _⟩ => ⟨S32x4096x1024, .f32⟩
  | .hbm, ⟨1, _⟩ => ⟨S32x1024, .f32⟩
  | .hbm, ⟨2, _⟩ => ⟨S32x512x2, .i32⟩
  | .hbm, ⟨3, _⟩ => ⟨S2x3072, .f32⟩
  | .hbm, ⟨4, _⟩ => ⟨S2, .f32⟩
  | .hbm, ⟨5, _⟩ => ⟨S2, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S32x512x2, .i32⟩
  | .hbm, ⟨10, _⟩ => ⟨S32x512x2, .i32⟩
  | .hbm, ⟨11, _⟩ => ⟨S_, .i32⟩
  | .hbm, ⟨12, _⟩ => ⟨S32x512x2, .i32⟩
  | .hbm, ⟨13, _⟩ => ⟨S32x512x2, .i32⟩
  | .hbm, ⟨14, _⟩ => ⟨S32x512x1, .i32⟩
  | .hbm, ⟨15, _⟩ => ⟨S32x512, .i32⟩
  | .hbm, ⟨16, _⟩ => ⟨S32x512x1, .i32⟩
  | .hbm, ⟨17, _⟩ => ⟨S32x512x1, .i32⟩
  | .hbm, ⟨18, _⟩ => ⟨S32x512, .i32⟩
  | .hbm, ⟨19, _⟩ => ⟨S32x512x1, .i32⟩
  | .hbm, ⟨20, _⟩ => ⟨S32x1x1024, .f32⟩
  | .hbm, ⟨21, _⟩ => ⟨S2x1024, .f32⟩
  | .hbm, ⟨22, _⟩ => ⟨S2x1024, .f32⟩
  | .hbm, ⟨23, _⟩ => ⟨S2x1024, .f32⟩
  | .hbm, ⟨24, _⟩ => ⟨S1024x2, .f32⟩
  | .hbm, ⟨25, _⟩ => ⟨S1024x2, .f32⟩
  | .hbm, ⟨26, _⟩ => ⟨S1024x2, .f32⟩
  | .hbm, ⟨27, _⟩ => ⟨S1024x6, .f32⟩
  | .hbm, ⟨28, _⟩ => ⟨S2, .f32⟩
  | .hbm, ⟨29, _⟩ => ⟨S32x512x2, .f32⟩
  | .local _ .vmem, ⟨0, _⟩ => ⟨S1x1x1024, .f32⟩
  | .local _ .vmem, ⟨1, _⟩ => ⟨S1x1x1024, .f32⟩
  | .local _ .vmem, ⟨2, _⟩ => ⟨S1x512x1, .i32⟩
  | .local _ .vmem, ⟨3, _⟩ => ⟨S1x512x1, .i32⟩
  | .local _ .vmem, ⟨4, _⟩ => ⟨S1x512x1, .i32⟩
  | .local _ .vmem, ⟨5, _⟩ => ⟨S1x512x1, .i32⟩
  | .local _ .vmem, ⟨6, _⟩ => ⟨S1x1024x1024, .f32⟩
  | .local _ .vmem, ⟨7, _⟩ => ⟨S1x1024x1024, .f32⟩
  | .local _ .vmem, ⟨8, _⟩ => ⟨S1024x6, .f32⟩
  | .local _ .vmem, ⟨9, _⟩ => ⟨S2, .f32⟩
  | .local _ .vmem, ⟨10, _⟩ => ⟨S1x512x2, .f32⟩
  | .local _ .vmem, ⟨11, _⟩ => ⟨S1x512x2, .f32⟩
  | .local _ .vmem, ⟨12, _⟩ => ⟨S512x4, .f32⟩
  | .local _ .vmem, ⟨13, _⟩ => ⟨S512x4, .f32⟩
  | _, _ => ⟨S32x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v41 : BitVec 1 := Scalar.cmpi .eq arg1 c3_i32
  let v42 : BitVec 32 := Scalar.extui v41
  let c0_i32_21 : BitVec 32 := 0#32
  let v43 : BitVec 1 := Scalar.cmpi .ne v42 c0_i32_21
  v43

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S32x512x2 : S_.BroadcastsInDim S32x512x2 (![] : Fin 0 → Fin S32x512x2.rank)
  slices_S32x512x2_S32x512x1_0_0_0 : S32x512x2.Slices ![0, 0, 0] S32x512x1
  shapeCasts_S32x512x1_S32x512 : S32x512x1.ShapeCasts S32x512
  shapeCasts_S32x512_S32x512x1 : S32x512.ShapeCasts S32x512x1
  slices_S32x512x2_S32x512x1_0_0_1 : S32x512x2.Slices ![0, 0, 1] S32x512x1
  shapeCasts_S32x1024_S32x1x1024 : S32x1024.ShapeCasts S32x1x1024
  slices_S2x3072_S2x1024_0_0 : S2x3072.Slices ![0, 0] S2x1024
  slices_S2x3072_S2x1024_0_1024 : S2x3072.Slices ![0, 1024] S2x1024
  slices_S2x3072_S2x1024_0_2048 : S2x3072.Slices ![0, 2048] S2x1024
  transposes_S2x1024_S1024x2_1_0 : S2x1024.Transposes [1, 0] S1024x2
  concatenates_S1024x2_S1024x2_S1024x2_S1024x6_d1 : Shape.Concatenates [S1024x2, S1024x2, S1024x2] S1024x6 1
  inb_S512x4_S512x4_0_0 : ∀ a, (![0, 0] : Fin 2 → Nat) a + S512x4.size a ≤ S512x4.size a
  h_S512x4 : 0 < S512x4.numel
  shapeCasts_S512x4_S512x4 : S512x4.ShapeCasts S512x4
  iota_S1x1024_d1_w32 : S1x1024.Iotas .tc 32 [1]
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  broadcasts_S1x1024_S512x1024 : S1x1024.Broadcasts S512x1024
  broadcasts_S512x1_S512x1024 : S512x1.Broadcasts S512x1024
  natLt_1_32 : 1 < 32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x6_S1024x6_0_0 : ∀ a, (![0, 0] : Fin 2 → Nat) a + S1024x6.size a ≤ S1024x6.size a
  h_S1024x6 : 0 < S1024x6.numel
  shapeCasts_S1024x6_S1024x6 : S1024x6.ShapeCasts S1024x6
  slices_S1024x6_o0_2_S1024x4 : S1024x6.Slices ![0, 2] S1024x4
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  slices_S1024x6_o0_0_S1024x2 : S1024x6.Slices ![0, 0] S1024x2
  slices_S512x4_o0_0_S512x2 : S512x4.Slices ![0, 0] S512x2
  slices_S512x4_o0_2_S512x2 : S512x4.Slices ![0, 2] S512x2
  broadcasts_S1x2_S512x2 : S1x2.Broadcasts S512x2
  inb_S2_S2_0 : ∀ a, (![0] : Fin 1 → Nat) a + S2.size a ≤ S2.size a
  h_S2 : 0 < S2.numel
  shapeCasts_S2_S2 : S2.ShapeCasts S2
  shapeCasts_S2_S1x2 : S2.ShapeCasts S1x2
  inb_S1x512x2_S1x512x2_0_0_0 : ∀ a, (![0, 0, 0] : Fin 3 → Nat) a + S1x512x2.size a ≤ S1x512x2.size a
  h_S1x512x2 : 0 < S1x512x2.numel
  shapeCasts_S1x512x2_S512x2 : S1x512x2.ShapeCasts S512x2
  shapeCasts_S512x2_S1x512x2 : S512x2.ShapeCasts S1x512x2
  dot_S1024x1024_S1024x4_S1024x4_1_0_0_1_n_n_wf : DotDims.WF S1024x1024 S1024x4 S1024x4 [1] [0] [0] [1] [] []
  dot_S512x1024_S1024x4_S512x4_1_0_0_1_n_n_wf : DotDims.WF S512x1024 S1024x4 S512x4 [1] [0] [0] [1] [] []
  dot_S1x1024_S1024x2_S1x2_1_0_0_1_n_n_wf : DotDims.WF S1x1024 S1024x2 S1x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S32x1x1024.size a
  hwx0_0 : ∀ i : grid0.Coords, EltTy.bits .f32 = 32 ∨ (Rect.block (s := S32x1x1024) S1x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S32x512x1.size a
  hwx0_1 : ∀ i : grid0.Coords, EltTy.bits .i32 = 32 ∨ (Rect.block (s := S32x512x1) S1x512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S32x512x1.size a
  hwx0_2 : ∀ i : grid0.Coords, EltTy.bits .i32 = 32 ∨ (Rect.block (s := S32x512x1) S1x512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S32x4096x1024.size a
  hwx0_3 : ∀ i : grid0.Coords, EltTy.bits .f32 = 32 ∨ (Rect.block (s := S32x4096x1024) S1x1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x6.size a ≤ S1024x6.size a
  hwx0_4 : ∀ i : grid0.Coords, EltTy.bits .f32 = 32 ∨ (Rect.block (s := S1024x6) S1024x6.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2.size a ≤ S2.size a
  hwx0_5 : ∀ i : grid0.Coords, EltTy.bits .f32 = 32 ∨ (Rect.block (s := S2) S2.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x2.size a ≤ S32x512x2.size a
  hwx0_6 : ∀ i : grid0.Coords, EltTy.bits .f32 = 32 ∨ (Rect.block (s := S32x512x2) S1x512x2.size (cc0_transform_6 i) (hinb0_6 i)).WholeWords (EltTy.packing .f32)

variable [Facts₀]

def dot_S1024x1024_S1024x4_S1024x4_1_0_0_1_n_n : DotDims S1024x1024 S1024x4 S1024x4 where
  lhsContracting := [1]
  rhsContracting := [0]
  lhsNonContracting := [0]
  rhsNonContracting := [1]
  lhsBatch := []
  rhsBatch := []
  wf := dot_S1024x1024_S1024x4_S1024x4_1_0_0_1_n_n_wf
def dot_S512x1024_S1024x4_S512x4_1_0_0_1_n_n : DotDims S512x1024 S1024x4 S512x4 where
  lhsContracting := [1]
  rhsContracting := [0]
  lhsNonContracting := [0]
  rhsNonContracting := [1]
  lhsBatch := []
  rhsBatch := []
  wf := dot_S512x1024_S1024x4_S512x4_1_0_0_1_n_n_wf
def dot_S1x1024_S1024x2_S1x2_1_0_0_1_n_n : DotDims S1x1024 S1024x2 S1x2 where
  lhsContracting := [1]
  rhsContracting := [0]
  lhsNonContracting := [0]
  rhsNonContracting := [1]
  lhsBatch := []
  rhsBatch := []
  wf := dot_S1x1024_S1024x2_S1x2_1_0_0_1_n_n_wf

abbrev win0_0 : Pipeline.Window sig grid0 :=
  Pipeline.Window.ofSpec (Memref.whole main_v7) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1024x6.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x512x2.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S32x4096x1024 : Shape := ⟨3, ![32, 4096, 1024]⟩
abbrev S32x1024 : Shape := ⟨2, ![32, 1024]⟩
abbrev S32x512x2 : Shape := ⟨3, ![32, 512, 2]⟩
abbrev S2x3072 : Shape := ⟨2, ![2, 3072]⟩
abbrev S2 : Shape := ⟨1, ![2]⟩
abbrev S32x512x1 : Shape := ⟨3, ![32, 512, 1]⟩
abbrev S32x512 : Shape := ⟨2, ![32, 512]⟩
abbrev S_ : Shape := ⟨0, ![]⟩
abbrev S1 : Shape := ⟨1, ![1]⟩
abbrev S1x1x1 : Shape := ⟨3, ![1, 1, 1]⟩
abbrev S32x512x1024 : Shape := ⟨3, ![32, 512, 1024]⟩
abbrev S32x1x1024 : Shape := ⟨3, ![32, 1, 1024]⟩
abbrev S32x512x3072 : Shape := ⟨3, ![32, 512, 3072]⟩
abbrev S1x1x2 : Shape := ⟨3, ![1, 1, 2]⟩

abbrev nBuf : Space → Nat
  | .hbm => 66
  | .vmem => 0
  | .smem => 0
  | _ => 0

abbrev bufTy : (tb : Table) → Fin (tcTables nBuf tb) → BufTy
  | .hbm, ⟨0, _⟩ => ⟨S32x4096x1024, .f32⟩
  | .hbm, ⟨1, _⟩ => ⟨S32x1024, .f32⟩
  | .hbm, ⟨2, _⟩ => ⟨S32x512x2, .i32⟩
  | .hbm, ⟨3, _⟩ => ⟨S2x3072, .f32⟩
  | .hbm, ⟨4, _⟩ => ⟨S2, .f32⟩
  | .hbm, ⟨5, _⟩ => ⟨S2, .f32⟩
  | .hbm, ⟨6, _⟩ => ⟨S32x512x1, .i32⟩
  | .hbm, ⟨7, _⟩ => ⟨S32x512, .i32⟩
  | .hbm, ⟨8, _⟩ => ⟨S32x512x1, .i32⟩
  | .hbm, ⟨9, _⟩ => ⟨S32x512, .i32⟩
  | .hbm, ⟨10, _⟩ => ⟨S32x512x1, .i32⟩
  | .hbm, ⟨11, _⟩ => ⟨S_, .i32⟩
  | .hbm, ⟨12, _⟩ => ⟨S32x512x1, .i32⟩
  | .hbm, ⟨13, _⟩ => ⟨S32x512x1, .i1⟩
  | .hbm, ⟨14, _⟩ => ⟨S_, .i32⟩
  | .hbm, ⟨15, _⟩ => ⟨S32x512x1, .i32⟩
  | .hbm, ⟨16, _⟩ => ⟨S32x512x1, .i32⟩
  | .hbm, ⟨17, _⟩ => ⟨S32x512x1, .i32⟩
  | .hbm, ⟨18, _⟩ => ⟨S1, .i32⟩
  | .hbm, ⟨19, _⟩ => ⟨S_, .i32⟩
  | .hbm, ⟨20, _⟩ => ⟨S32x512x1, .i32⟩
  | .hbm, ⟨21, _⟩ => ⟨S32x512x1, .i1⟩
  | .hbm, ⟨22, _⟩ => ⟨S1x1x1, .i32⟩
  | .hbm, ⟨23, _⟩ => ⟨S32x512x1, .i32⟩
  | .hbm, ⟨24, _⟩ => ⟨S32x512x1, .i1⟩
  | .hbm, ⟨25, _⟩ => ⟨S32x512x1, .i1⟩
  | .hbm, ⟨26, _⟩ => ⟨S_, .i1⟩
  | .hbm, ⟨27, _⟩ => ⟨S32x512, .i1⟩
  | .hbm, ⟨28, _⟩ => ⟨S32x512x1024, .f32⟩
  | .hbm, ⟨29, _⟩ => ⟨S32x512x1024, .i1⟩
  | .hbm, ⟨30, _⟩ => ⟨S_, .f32⟩
  | .hbm, ⟨31, _⟩ => ⟨S32x512x1024, .f32⟩
  | .hbm, ⟨32, _⟩ => ⟨S32x512x1024, .f32⟩
  | .hbm, ⟨33, _⟩ => ⟨S32x512x1, .i32⟩
  | .hbm, ⟨34, _⟩ => ⟨S_, .i32⟩
  | .hbm, ⟨35, _⟩ => ⟨S32x512x1, .i32⟩
  | .hbm, ⟨36, _⟩ => ⟨S32x512x1, .i1⟩
  | .hbm, ⟨37, _⟩ => ⟨S_, .i32⟩
  | .hbm, ⟨38, _⟩ => ⟨S32x512x1, .i32⟩
  | .hbm, ⟨39, _⟩ => ⟨S32x512x1, .i32⟩
  | .hbm, ⟨40, _⟩ => ⟨S32x512x1, .i32⟩
  | .hbm, ⟨41, _⟩ => ⟨S1, .i32⟩
  | .hbm, ⟨42, _⟩ => ⟨S_, .i32⟩
  | .hbm, ⟨43, _⟩ => ⟨S32x512x1, .i32⟩
  | .hbm, ⟨44, _⟩ => ⟨S32x512x1, .i1⟩
  | .hbm, ⟨45, _⟩ => ⟨S1x1x1, .i32⟩
  | .hbm, ⟨46, _⟩ => ⟨S32x512x1, .i32⟩
  | .hbm, ⟨47, _⟩ => ⟨S32x512x1, .i1⟩
  | .hbm, ⟨48, _⟩ => ⟨S32x512x1, .i1⟩
  | .hbm, ⟨49, _⟩ => ⟨S_, .i1⟩
  | .hbm, ⟨50, _⟩ => ⟨S32x512, .i1⟩
  | .hbm, ⟨51, _⟩ => ⟨S32x512x1024, .f32⟩
  | .hbm, ⟨52, _⟩ => ⟨S32x512x1024, .i1⟩
  | .hbm, ⟨53, _⟩ => ⟨S_, .f32⟩
  | .hbm, ⟨54, _⟩ => ⟨S32x512x1024, .f32⟩
  | .hbm, ⟨55, _⟩ => ⟨S32x512x1024, .f32⟩
  | .hbm, ⟨56, _⟩ => ⟨S32x1x1024, .f32⟩
  | .hbm, ⟨57, _⟩ => ⟨S32x512x1024, .f32⟩
  | .hbm, ⟨58, _⟩ => ⟨S32x512x3072, .f32⟩
  | .hbm, ⟨59, _⟩ => ⟨S32x512x2, .f32⟩
  | .hbm, ⟨60, _⟩ => ⟨S1x1x2, .f32⟩
  | .hbm, ⟨61, _⟩ => ⟨S32x512x2, .f32⟩
  | .hbm, ⟨62, _⟩ => ⟨S32x512x2, .f32⟩
  | .hbm, ⟨63, _⟩ => ⟨S1x1x2, .f32⟩
  | .hbm, ⟨64, _⟩ => ⟨S32x512x2, .f32⟩
  | .hbm, ⟨65, _⟩ => ⟨S32x512x2, .f32⟩
  | _, _ => ⟨S32x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_c_2 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_c_3 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v5 : Ref sig .tc := ⟨.hbm, 32, rfl⟩
abbrev main_v6 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_c_2 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_c_3 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_cst : Ref sig .tc := ⟨.hbm, 53, rfl⟩
abbrev main_call1_v14 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩

abbrev nD : Nat := 1
abbrev τ : Topo := Topo.v7x

variable {F : FTy → Type} [FloatOps F]

class Facts₀ : Prop where
  slices_S32x512x2_S32x512x1_0_0_0 : S32x512x2.Slices ![0, 0, 0] S32x512x1
  shapeCasts_S32x512x1_S32x512 : S32x512x1.ShapeCasts S32x512
  slices_S32x512x2_S32x512x1_0_0_1 : S32x512x2.Slices ![0, 0, 1] S32x512x1
  bcast_S32x512_S32x512x1_0_1 : S32x512.BroadcastsInDim S32x512x1 (![0, 1] : Fin 2 → Fin S32x512x1.rank)
  bcast_S_S32x512x1 : S_.BroadcastsInDim S32x512x1 (![] : Fin 0 → Fin S32x512x1.rank)
  bcast_S1_S1x1x1_2 : S1.BroadcastsInDim S1x1x1 (![2] : Fin 1 → Fin S1x1x1.rank)
  bcast_S1x1x1_S32x512x1_0_1_2 : S1x1x1.BroadcastsInDim S32x512x1 (![0, 1, 2] : Fin 3 → Fin S32x512x1.rank)
  reducesTo_S32x512x1_S32x512_d2 : S32x512x1.ReducesTo [2] S32x512
  h_S_ : 0 < S_.numel
  bcast_S32x512_S32x512x1024_0_1 : S32x512.BroadcastsInDim S32x512x1024 (![0, 1] : Fin 2 → Fin S32x512x1024.rank)
  bcast_S_S32x512x1024 : S_.BroadcastsInDim S32x512x1024 (![] : Fin 0 → Fin S32x512x1024.rank)
  bcast_S32x1024_S32x1x1024_0_2 : S32x1024.BroadcastsInDim S32x1x1024 (![0, 2] : Fin 2 → Fin S32x1x1024.rank)
  bcast_S32x1x1024_S32x512x1024_0_1_2 : S32x1x1024.BroadcastsInDim S32x512x1024 (![0, 1, 2] : Fin 3 → Fin S32x512x1024.rank)
  concatenates_S32x512x1024_S32x512x1024_S32x512x1024_S32x512x3072_d2 : Shape.Concatenates [S32x512x1024, S32x512x1024, S32x512x1024] S32x512x3072 2
  bcast_S2_S1x1x2_2 : S2.BroadcastsInDim S1x1x2 (![2] : Fin 1 → Fin S1x1x2.rank)
  bcast_S1x1x2_S32x512x2_0_1_2 : S1x1x2.BroadcastsInDim S32x512x2 (![0, 1, 2] : Fin 3 → Fin S32x512x2.rank)
  gather_S32x4096x1024_S32x512x1_S32x512x1024_2_1_0_0_1_2_111024_wf : GatherDims.WF S32x4096x1024 S32x512x1 S32x512x1024 [2] [1] [0] [1] [0] 2 ![1, 1, 1024]
  dot_S32x512x3072_S2x3072_S32x512x2_2_1_01_0_n_n_wf : DotDims.WF S32x512x3072 S2x3072 S32x512x2 [2] [1] [0, 1] [0] [] []

variable [Facts₀]

def gather_S32x4096x1024_S32x512x1_S32x512x1024_2_1_0_0_1_2_111024 : GatherDims S32x4096x1024 S32x512x1 S32x512x1024 where
  offsetDims := [2]
  collapsedSliceDims := [1]
  operandBatchingDims := [0]
  startIndicesBatchingDims := [0]
  startIndexMap := [1]
  indexVectorDim := 2
  sliceSizes := ![1, 1, 1024]
  wf := gather_S32x4096x1024_S32x512x1_S32x512x1024_2_1_0_0_1_2_111024_wf
def dot_S32x512x3072_S2x3072_S32x512x2_2_1_01_0_n_n : DotDims S32x512x3072 S2x3072 S32x512x2 where
  lhsContracting := [2]
  rhsContracting := [1]
  lhsNonContracting := [0, 1]
  rhsNonContracting := [0]
  lhsBatch := []
  rhsBatch := []
  wf := dot_S32x512x3072_S2x3072_S32x512x2_2_1_01_0_n_n_wf

class Facts : Prop extends Facts₀ where

variable [Facts]
-- ==== Proof.KHost.lean ====
/-
  The program up to its one region, and the arrays as the region finds them.

  Before the region the program computes, on the host, the clamped pair indices split into two index
  columns, the pooled state as a [32,1,1024] array, the three weight thirds transposed and joined into a
  [1024,6] matrix, and the sum of the two biases. None of these operations writes an argument array, so the region
  finds every argument as launched.
-/
import proofs.«428122_j71476845740454_3_alg».proof.Proof.Gen.Kernel.Launch
import Idealize.ShloMosaic.Lib.Pipeline.FrameBody
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the region is entered: the launch contents after the three stretches of host
    operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- A reference no host operation writes holds its launch contents at the region's entry. -/
theorem V_of_not_written (c : Dev nD) (b : Ref sig .tc)
    (h : (List.flatten [hostOps0 (F := F), hostOps0_1, hostOps0_2]).Forall fun op => Proc.devRef .tc b ∉ op.writes) :
    V m c b = m ((c : Thread nD τ).loc b) :=
  StableHlo.after_of_forall_not_mem (b := Proc.devRef .tc b) _ _ (List.forall_iff_forall_mem.mp h)

/-- No host operation writes argument 0. -/
theorem V_main_arg0 (c : Dev nD) : V m c main_arg0 = m ((c : Thread nD τ).loc main_arg0) :=
  V_of_not_written m c main_arg0 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
/-- No host operation writes argument 1. -/
theorem V_main_arg1 (c : Dev nD) : V m c main_arg1 = m ((c : Thread nD τ).loc main_arg1) :=
  V_of_not_written m c main_arg1 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
/-- No host operation writes argument 2. -/
theorem V_main_arg2 (c : Dev nD) : V m c main_arg2 = m ((c : Thread nD τ).loc main_arg2) :=
  V_of_not_written m c main_arg2 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
/-- No host operation writes argument 3. -/
theorem V_main_arg3 (c : Dev nD) : V m c main_arg3 = m ((c : Thread nD τ).loc main_arg3) :=
  V_of_not_written m c main_arg3 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
/-- No host operation writes argument 4. -/
theorem V_main_arg4 (c : Dev nD) : V m c main_arg4 = m ((c : Thread nD τ).loc main_arg4) :=
  V_of_not_written m c main_arg4 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
/-- No host operation writes argument 5. -/
theorem V_main_arg5 (c : Dev nD) : V m c main_arg5 = m ((c : Thread nD τ).loc main_arg5) :=
  V_of_not_written m c main_arg5 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

end Cert.Kernel.Fr

end
-- ==== Proof.KBase.lean ====
/-
  What the runs of the kernel body are stated over: each window's block at a grid point, the two branch
  conditions in closed form, where the output window is idle, and the memrefs the body is called with.

  The grid is 32 batches by 4 sequence tiles, walked row by row: point `t` is batch `t / 4`, tile `t % 4`.
  The body zeroes its two accumulators at tile 0 and stores the output block at tile 3; at tiles 0, 1, 2 the output
  window is idle and is not written back.
-/
import proofs.«428122_j71476845740454_3_alg».proof.Proof.KHost
import proofs.«428122_j71476845740454_3_alg».proof.Proof.Gen.Kernel.Skeleton
import proofs.«428122_j71476845740454_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run that ends with every staged array at what the proof data computes and every other unscoped buffer as
    the region found it, the argument arrays end as launched: a staged argument (the hidden states) is an input window's
    array, the others are buffers no window stages, and no host operation wrote any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 3).trans (((dats 0 c).arrAt_in 3 rfl _).trans ((hA c 3).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's branch conditions -/

/-- The first branch (zero the accumulators) is taken where the tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (store the output block) is taken where the tile coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last tile the body stores nothing into the output window, and its block is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-! ## The memrefs the body is called with -/

abbrev ms0_0 (t : Fin cfg0.N) : Memref sig .tc .vmem S1x1x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x6 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x2 .f32 := win0_6.stage (cfg0.slots t 6)
abbrev hs0_6 (t : Fin cfg0.N) : (ms0_6 t).IsWhole := hstage0_6 ((cfg0.slots t 6).cast nbuf0_6)
/-- One staging buffer of the output window, through which its contents are stated. -/
abbrev VO0_6 : View sig .tc .vmem S1x512x2 .f32 := (Memref.whole cc0_stg6_0 : Memref sig .tc .vmem S1x512x2 .f32).view
/-- The two accumulators: whole scoped buffers of the kernel's own. -/
abbrev scM0_0 : Memref sig .tc .vmem S512x4 .f32 := Memref.whole cc0_scratch0
abbrev scM0_1 : Memref sig .tc .vmem S512x4 .f32 := Memref.whole cc0_scratch1
abbrev VS0_0 : View sig .tc .vmem S512x4 .f32 := scM0_0.view
abbrev VS0_1 : View sig .tc .vmem S512x4 .f32 := scM0_1.view

/-- The region's own resources: the two accumulators owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Fr

end
-- ==== Proof.KRunA.lean ====
/-
  The kernel body at the first sequence tile of a batch: both accumulators are zeroed, then this tile's
  one-hot selections of the projected rows are added; the output window is left untouched.
-/
import proofs.«428122_j71476845740454_3_alg».proof.Proof.KBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case, on whole memrefs: the inputs at their contents are handed back as they were; the
    pieces the stores leave in the output window and in each accumulator are the witnesses the run finds. -/
noncomputable def kernelRun0_A (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) :
    Σ' (L6 : List (View.Piece (Elt F) S1x512x2 .f32)) (LS0 : List (View.Piece (Elt F) S512x4 .f32)), { LS1 : List (View.Piece (Elt F) S512x4 .f32) //
      ∀ (xi6 : Vec F S1x512x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gnn_head_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc0__gnn_head_kernel_eq_skeleton]; unfold cc0__gnn_head_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Fr

end
-- ==== Proof.KRunB.lean ====
/-
  The kernel body at a middle sequence tile: this tile's one-hot selections of the projected rows are added
  to the two accumulators the tile before left; the output window is left untouched.
-/
import proofs.«428122_j71476845740454_3_alg».proof.Proof.KRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case, on whole memrefs: the inputs at their contents are handed back as they were; the
    pieces the stores leave in the output window and in each accumulator are the witnesses the run finds. -/
noncomputable def kernelRun0_B (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) :
    Σ' (L6 : List (View.Piece (Elt F) S1x512x2 .f32)) (LS0 : List (View.Piece (Elt F) S512x4 .f32)), { LS1 : List (View.Piece (Elt F) S512x4 .f32) //
      ∀ (xi6 : Vec F S1x512x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gnn_head_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc0__gnn_head_kernel_eq_skeleton]; unfold cc0__gnn_head_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Fr

end
-- ==== Proof.KRunC.lean ====
/-
  The kernel body at the last sequence tile of a batch: the accumulators take this tile's selections, and the
  output block is stored from them, the pooled projection and the bias.
-/
import proofs.«428122_j71476845740454_3_alg».proof.Proof.KRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case, on whole memrefs: the inputs at their contents are handed back as they were; the
    pieces the stores leave in the output window and in each accumulator are the witnesses the run finds. -/
noncomputable def kernelRun0_C (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) :
    Σ' (L6 : List (View.Piece (Elt F) S1x512x2 .f32)) (LS0 : List (View.Piece (Elt F) S512x4 .f32)), { LS1 : List (View.Piece (Elt F) S512x4 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gnn_head_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__gnn_head_kernel_eq_skeleton]; unfold cc0__gnn_head_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.Kernel.Fr

end
-- ==== Proof.KFrame.lean ====
/-
  The frame of the program: what the output window and the two accumulators hold after each grid point, the proof
  data of the pipeline, the body's obligation at every point, the run of the whole program, and the frame claim.

  After point `t` (batch `t / 4`, tile `t % 4`) the accumulators hold, by recursion on the point: at tile 0 what the
  body leaves starting from zero, at later tiles what it leaves starting from what the point before left. The output
  window is written at tile 3 only, and is written back to its array there.
-/
import proofs.«428122_j71476845740454_3_alg».proof.Proof.KRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the output window's buffer: its pieces read back (none: the window is idle, and nothing consults this value). -/
def out0_A_6 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) : Vec F S1x512x2 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4 x5).1)

/-- Case A's stores cover accumulator 0. -/
theorem scover0_A_0 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (y : S512x4.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).2.1 S512x4.size (by sl_kernel_rfl) y

/-- What case A leaves in accumulator 0: its pieces read back. -/
def sout0_A_0 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) : Vec F S512x4 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5).2.1)

/-- Case A's stores cover accumulator 1. -/
theorem scover0_A_1 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (y : S512x4.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).2.2.1 S512x4.size (by sl_kernel_rfl) y

/-- What case A leaves in accumulator 1: its pieces read back. -/
def sout0_A_1 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) : Vec F S512x4 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3 x4 x5).2.2.1)

/-- What case B leaves in the output window's buffer: its pieces read back (none: the window is idle, and nothing consults this value). -/
def out0_B_6 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) : Vec F S1x512x2 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 x5 xs0 xs1).1)

/-- Case B's stores cover accumulator 0. -/
theorem scover0_B_0 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) (y : S512x4.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0 xs1).2.1 S512x4.size (by sl_kernel_rfl) y

/-- What case B leaves in accumulator 0: its pieces read back. -/
def sout0_B_0 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) : Vec F S512x4 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 xs0 xs1).2.1)

/-- Case B's stores cover accumulator 1. -/
theorem scover0_B_1 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) (y : S512x4.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0 xs1).2.2.1 S512x4.size (by sl_kernel_rfl) y

/-- What case B leaves in accumulator 1: its pieces read back. -/
def sout0_B_1 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) : Vec F S512x4 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 x4 x5 xs0 xs1).2.2.1)

/-- What case C leaves in the output window's buffer: its pieces read back. -/
def out0_C_6 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) : Vec F S1x512x2 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 x5 xs0 xs1).1)

/-- Case C's one store covers the output block. -/
theorem cover0_C_6 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) (y : S1x512x2.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).1 S1x512x2.size (by sl_kernel_rfl) y

/-- Case C's stores cover accumulator 0. -/
theorem scover0_C_0 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) (y : S512x4.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.1 S512x4.size (by sl_kernel_rfl) y

/-- What case C leaves in accumulator 0: its pieces read back. -/
def sout0_C_0 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) : Vec F S512x4 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 xs0 xs1).2.1)

/-- Case C's stores cover accumulator 1. -/
theorem scover0_C_1 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) (y : S512x4.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.2.1 S512x4.size (by sl_kernel_rfl) y

/-- What case C leaves in accumulator 1: its pieces read back. -/
def sout0_C_1 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) : Vec F S512x4 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 x4 x5 xs0 xs1).2.2.1)

/-! ## What the buffers hold after each point -/

/-- The output window's buffer and the two accumulators after the body at position `n`: the case the tile selects, an
    accumulator it reads before covering at what the point before left. -/
def outsAt0 (c : Dev nD) : (n : ℕ) → n < cfg0.N → Vec F S1x512x2 .f32 × Vec F S512x4 .f32 × Vec F S512x4 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 4 = 0 then
      if h1 : (n + 1) % 4 = 3 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 4 = 3 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2)

theorem outsAt0_A (c : Dev nD) (t : Fin cfg0.N) (h0 : t.val % 4 = 0) (h1 : ¬t.val % 4 = 3) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's own resources before position `n`: before the first point the accumulators at anything; afterwards
    each accumulator at what the point before left in it; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The arrays as the region finds them; after the body at point `t` each input's buffer at its block and the output's
    at `outsAt0`; the region's resources `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the inputs' buffers hold their blocks; the tile coordinate says which case applies; the
    accumulators are handed over at what the point before left (at anything at the first point) and taken back at this
    point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6 t (fun h => h1 ((hcond0_1 t).mp h))) (noFlush0_6 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 4 = 3
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t ((hcond0_1 t).mpr h1)], after0_6]
      rw [outsAt0_C m c t h0 h1]
      unfold out0_C_6 sout0_C_0 sout0_C_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        iintro ⟨H0, H1, H2, H3, H4, H5, ⟨%e6, H6⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 c _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6 t (fun h => h1 ((hcond0_1 t).mp h))) (noFlush0_6 t (fun h => h1 ((hcond0_1 t).mp h)))]
      rw [outsAt0_B m c t h0 h1]
      unfold sout0_B_0 sout0_B_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of the program terminates, and every final state has every array of the pipeline at
    what the proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame claim, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Fr

end
-- ==== Proof.KIHost.lean ====
/-
  The program up to its one region, and the arrays as the region finds them.

  Before the region the program computes, on the host, the clamped pair indices split into two index
  columns, the pooled state as a [32,1,1024] array, the three weight thirds transposed and joined into a
  [1024,6] matrix, and the sum of the two biases. None of these operations writes an argument array, so the region
  finds every argument as launched.
-/
import proofs.«428122_j71476845740454_3_alg».proof.Proof.Gen.KernelIdeal.Launch
import Idealize.ShloMosaic.Lib.Pipeline.FrameBody
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the region is entered: the launch contents after the three stretches of host
    operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- A reference no host operation writes holds its launch contents at the region's entry. -/
theorem V_of_not_written (c : Dev nD) (b : Ref sig .tc)
    (h : (List.flatten [hostOps0 (F := F), hostOps0_1, hostOps0_2]).Forall fun op => Proc.devRef .tc b ∉ op.writes) :
    V m c b = m ((c : Thread nD τ).loc b) :=
  StableHlo.after_of_forall_not_mem (b := Proc.devRef .tc b) _ _ (List.forall_iff_forall_mem.mp h)

/-- No host operation writes argument 0. -/
theorem V_main_arg0 (c : Dev nD) : V m c main_arg0 = m ((c : Thread nD τ).loc main_arg0) :=
  V_of_not_written m c main_arg0 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
/-- No host operation writes argument 1. -/
theorem V_main_arg1 (c : Dev nD) : V m c main_arg1 = m ((c : Thread nD τ).loc main_arg1) :=
  V_of_not_written m c main_arg1 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
/-- No host operation writes argument 2. -/
theorem V_main_arg2 (c : Dev nD) : V m c main_arg2 = m ((c : Thread nD τ).loc main_arg2) :=
  V_of_not_written m c main_arg2 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
/-- No host operation writes argument 3. -/
theorem V_main_arg3 (c : Dev nD) : V m c main_arg3 = m ((c : Thread nD τ).loc main_arg3) :=
  V_of_not_written m c main_arg3 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
/-- No host operation writes argument 4. -/
theorem V_main_arg4 (c : Dev nD) : V m c main_arg4 = m ((c : Thread nD τ).loc main_arg4) :=
  V_of_not_written m c main_arg4 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))
/-- No host operation writes argument 5. -/
theorem V_main_arg5 (c : Dev nD) : V m c main_arg5 = m ((c : Thread nD τ).loc main_arg5) :=
  V_of_not_written m c main_arg5 (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

end Cert.KernelIdeal.Fr

end
-- ==== Proof.KIBase.lean ====
/-
  What the runs of the kernel body are stated over: each window's block at a grid point, the two branch
  conditions in closed form, where the output window is idle, and the memrefs the body is called with.

  The grid is 32 batches by 4 sequence tiles, walked row by row: point `t` is batch `t / 4`, tile `t % 4`.
  The body zeroes its two accumulators at tile 0 and stores the output block at tile 3; at tiles 0, 1, 2 the output
  window is idle and is not written back.
-/
import proofs.«428122_j71476845740454_3_alg».proof.Proof.KIHost
import proofs.«428122_j71476845740454_3_alg».proof.Proof.Gen.KernelIdeal.Skeleton
import proofs.«428122_j71476845740454_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- An input window's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run that ends with every staged array at what the proof data computes and every other unscoped buffer as
    the region found it, the argument arrays end as launched: a staged argument (the hidden states) is an input window's
    array, the others are buffers no window stages, and no host operation wrote any of them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 3).trans (((dats 0 c).arrAt_in 3 rfl _).trans ((hA c 3).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's branch conditions -/

/-- The first branch (zero the accumulators) is taken where the tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (store the output block) is taken where the tile coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last tile the body stores nothing into the output window, and its block is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel

/-! ## The memrefs the body is called with -/

abbrev ms0_0 (t : Fin cfg0.N) : Memref sig .tc .vmem S1x1x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x6 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x2 .f32 := win0_6.stage (cfg0.slots t 6)
abbrev hs0_6 (t : Fin cfg0.N) : (ms0_6 t).IsWhole := hstage0_6 ((cfg0.slots t 6).cast nbuf0_6)
/-- One staging buffer of the output window, through which its contents are stated. -/
abbrev VO0_6 : View sig .tc .vmem S1x512x2 .f32 := (Memref.whole cc0_stg6_0 : Memref sig .tc .vmem S1x512x2 .f32).view
/-- The two accumulators: whole scoped buffers of the kernel's own. -/
abbrev scM0_0 : Memref sig .tc .vmem S512x4 .f32 := Memref.whole cc0_scratch0
abbrev scM0_1 : Memref sig .tc .vmem S512x4 .f32 := Memref.whole cc0_scratch1
abbrev VS0_0 : View sig .tc .vmem S512x4 .f32 := scM0_0.view
abbrev VS0_1 : View sig .tc .vmem S512x4 .f32 := scM0_1.view

/-- The region's own resources: the two accumulators owned at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Fr

end
-- ==== Proof.KIRunA.lean ====
/-
  The kernel body at the first sequence tile of a batch: both accumulators are zeroed, then this tile's
  one-hot selections of the projected rows are added; the output window is left untouched.
-/
import proofs.«428122_j71476845740454_3_alg».proof.Proof.KIBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case, on whole memrefs: the inputs at their contents are handed back as they were; the
    pieces the stores leave in the output window and in each accumulator are the witnesses the run finds. -/
noncomputable def kernelRun0_A (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) :
    Σ' (L6 : List (View.Piece (Elt F) S1x512x2 .f32)) (LS0 : List (View.Piece (Elt F) S512x4 .f32)), { LS1 : List (View.Piece (Elt F) S512x4 .f32) //
      ∀ (xi6 : Vec F S1x512x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gnn_head_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc0__gnn_head_kernel_eq_skeleton]; unfold cc0__gnn_head_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Fr

end
-- ==== Proof.KIRunB.lean ====
/-
  The kernel body at a middle sequence tile: this tile's one-hot selections of the projected rows are added
  to the two accumulators the tile before left; the output window is left untouched.
-/
import proofs.«428122_j71476845740454_3_alg».proof.Proof.KIRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case, on whole memrefs: the inputs at their contents are handed back as they were; the
    pieces the stores leave in the output window and in each accumulator are the witnesses the run finds. -/
noncomputable def kernelRun0_B (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) :
    Σ' (L6 : List (View.Piece (Elt F) S1x512x2 .f32)) (LS0 : List (View.Piece (Elt F) S512x4 .f32)), { LS1 : List (View.Piece (Elt F) S512x4 .f32) //
      ∀ (xi6 : Vec F S1x512x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gnn_head_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc0__gnn_head_kernel_eq_skeleton]; unfold cc0__gnn_head_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Fr

end
-- ==== Proof.KIRunC.lean ====
/-
  The kernel body at the last sequence tile of a batch: the accumulators take this tile's selections, and the
  output block is stored from them, the pooled projection and the bias.
-/
import proofs.«428122_j71476845740454_3_alg».proof.Proof.KIRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case, on whole memrefs: the inputs at their contents are handed back as they were; the
    pieces the stores leave in the output window and in each accumulator are the witnesses the run finds. -/
noncomputable def kernelRun0_C (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) :
    Σ' (L6 : List (View.Piece (Elt F) S1x512x2 .f32)) (LS0 : List (View.Piece (Elt F) S512x4 .f32)), { LS1 : List (View.Piece (Elt F) S512x4 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__gnn_head_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__gnn_head_kernel_eq_skeleton]; unfold cc0__gnn_head_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.KernelIdeal.Fr

end
-- ==== Proof.KIFrame.lean ====
/-
  The frame of the program: what the output window and the two accumulators hold after each grid point, the proof
  data of the pipeline, the body's obligation at every point, the run of the whole program, and the frame claim.

  After point `t` (batch `t / 4`, tile `t % 4`) the accumulators hold, by recursion on the point: at tile 0 what the
  body leaves starting from zero, at later tiles what it leaves starting from what the point before left. The output
  window is written at tile 3 only, and is written back to its array there.
-/
import proofs.«428122_j71476845740454_3_alg».proof.Proof.KIRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the output window's buffer: its pieces read back (none: the window is idle, and nothing consults this value). -/
def out0_A_6 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) : Vec F S1x512x2 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4 x5).1)

/-- Case A's stores cover accumulator 0. -/
theorem scover0_A_0 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (y : S512x4.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).2.1 S512x4.size (by sl_kernel_rfl) y

/-- What case A leaves in accumulator 0: its pieces read back. -/
def sout0_A_0 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) : Vec F S512x4 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5).2.1)

/-- Case A's stores cover accumulator 1. -/
theorem scover0_A_1 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (y : S512x4.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5).2.2.1 S512x4.size (by sl_kernel_rfl) y

/-- What case A leaves in accumulator 1: its pieces read back. -/
def sout0_A_1 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) : Vec F S512x4 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3 x4 x5).2.2.1)

/-- What case B leaves in the output window's buffer: its pieces read back (none: the window is idle, and nothing consults this value). -/
def out0_B_6 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) : Vec F S1x512x2 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 x5 xs0 xs1).1)

/-- Case B's stores cover accumulator 0. -/
theorem scover0_B_0 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) (y : S512x4.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0 xs1).2.1 S512x4.size (by sl_kernel_rfl) y

/-- What case B leaves in accumulator 0: its pieces read back. -/
def sout0_B_0 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) : Vec F S512x4 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 xs0 xs1).2.1)

/-- Case B's stores cover accumulator 1. -/
theorem scover0_B_1 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) (y : S512x4.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 xs0 xs1).2.2.1 S512x4.size (by sl_kernel_rfl) y

/-- What case B leaves in accumulator 1: its pieces read back. -/
def sout0_B_1 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) : Vec F S512x4 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 x4 x5 xs0 xs1).2.2.1)

/-- What case C leaves in the output window's buffer: its pieces read back. -/
def out0_C_6 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) : Vec F S1x512x2 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 x5 xs0 xs1).1)

/-- Case C's one store covers the output block. -/
theorem cover0_C_6 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) (y : S1x512x2.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).1 S1x512x2.size (by sl_kernel_rfl) y

/-- Case C's stores cover accumulator 0. -/
theorem scover0_C_0 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) (y : S512x4.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.1 S512x4.size (by sl_kernel_rfl) y

/-- What case C leaves in accumulator 0: its pieces read back. -/
def sout0_C_0 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) : Vec F S512x4 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 xs0 xs1).2.1)

/-- Case C's stores cover accumulator 1. -/
theorem scover0_C_1 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) (y : S512x4.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 xs0 xs1).2.2.1 S512x4.size (by sl_kernel_rfl) y

/-- What case C leaves in accumulator 1: its pieces read back. -/
def sout0_C_1 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) : Vec F S512x4 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 x4 x5 xs0 xs1).2.2.1)

/-! ## What the buffers hold after each point -/

/-- The output window's buffer and the two accumulators after the body at position `n`: the case the tile selects, an
    accumulator it reads before covering at what the point before left. -/
def outsAt0 (c : Dev nD) : (n : ℕ) → n < cfg0.N → Vec F S1x512x2 .f32 × Vec F S512x4 .f32 × Vec F S512x4 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 4 = 0 then
      if h1 : (n + 1) % 4 = 3 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 4 = 3 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.1 (outsAt0 c n (Nat.lt_of_succ_lt hn)).2.2)

theorem outsAt0_A (c : Dev nD) (t : Fin cfg0.N) (h0 : t.val % 4 = 0) (h1 : ¬t.val % 4 = 3) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's own resources before position `n`: before the first point the accumulators at anything; afterwards
    each accumulator at what the point before left in it; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The arrays as the region finds them; after the body at point `t` each input's buffer at its block and the output's
    at `outsAt0`; the region's resources `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
/-- The body at any point: the inputs' buffers hold their blocks; the tile coordinate says which case applies; the
    accumulators are handed over at what the point before left (at anything at the first point) and taken back at this
    point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6 t (fun h => h1 ((hcond0_1 t).mp h))) (noFlush0_6 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · by_cases h1 : t.val % 4 = 3
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t ((hcond0_1 t).mpr h1)], after0_6]
      rw [outsAt0_C m c t h0 h1]
      unfold out0_C_6 sout0_C_0 sout0_C_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        iintro ⟨H0, H1, H2, H3, H4, H5, ⟨%e6, H6⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (cover0_C_6 c _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [Dat.leavesExact_idle (dats m 0 c) 6 t (idleAt0_6 t (fun h => h1 ((hcond0_1 t).mp h))) (noFlush0_6 t (fun h => h1 ((hcond0_1 t).mp h)))]
      rw [outsAt0_B m c t h0 h1]
      unfold sout0_B_0 sout0_B_1; (try dsimp only)
      by_cases hz : t.val = 0
      · exfalso; omega
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of the program terminates, and every final state has every array of the pipeline at
    what the proof data computes and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame claim, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Fr

end
-- ==== Proof.KIPieces.lean ====
/-
  What the body's stores leave, as values.

  At the first tile the accumulators are zeroed and read back, so each ends at its update of the zero block; at the
  other tiles each ends at its update of what it held. At the last tile the output block is the sum of the two
  accumulators' halves as just updated, the pooled projection and the bias.
-/
import proofs.«428122_j71476845740454_3_alg».proof.Proof.KIFrame
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.SL.Sem

variable {F : FTy → Type} [FloatOps F]

/-- The left accumulator's update of a block `acc`: `acc` plus the one-hot selection, by the left index column,
    of this tile's projected rows. -/
abbrev updL (i : grid0.Coords) (x1 : Vec F S1x512x1 .i32) (x3 : Vec F S1x1024x1024 .f32) (x4 : Vec F S1024x6 .f32) (acc : Vec F S512x4 .f32) : Vec F S512x4 .f32 :=
  k0_pay9 i x1 x3 x4 acc
/-- The right accumulator's update, by the right index column. -/
abbrev updR (i : grid0.Coords) (x2 : Vec F S1x512x1 .i32) (x3 : Vec F S1x1024x1024 .f32) (x4 : Vec F S1024x6 .f32) (acc : Vec F S512x4 .f32) : Vec F S512x4 .f32 :=
  k0_pay1 (k0_pay6 i x2) (k0_pay8 x3 x4) acc

/-- The zero offsets of a whole-block access, however they are spelt. -/
theorem hz1 : (![0] : Fin 1 → Nat) = fun _ => 0 := funext fun a => by fin_cases a <;> rfl
theorem hz : (![0, 0] : Fin 2 → Nat) = fun _ => 0 := funext fun a => by fin_cases a <;> rfl
theorem hz3 : (![0, 0, 0] : Fin 3 → Nat) = fun _ => 0 := funext fun a => by fin_cases a <;> rfl

theorem sout_A_0 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) :
    sout0_A_0 c i arg2 harg2 arg3 harg3 arg4 harg4 arg5 harg5 arg6 harg6 arg7 harg7 arg8 harg8 arg9 harg9 arg10 harg10 hc0 hc1 x0 x1 x2 x3 x4 x5 = updL i x1 x3 x4 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S512x4) hz, View.readCov_unit_zero (S := S512x4) _ hz]
  simp only [View.readAt_eq_ld, harg3.read_unread, harg5.read_unread, harg6.read_unread,
    View.ld_unit_zero (S := S1x512x1) hz3, View.ld_unit_zero (S := S1x1024x1024) hz3,
    View.ld_unit_zero (S := S1024x6) hz]

theorem sout_A_1 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) :
    sout0_A_1 c i arg2 harg2 arg3 harg3 arg4 harg4 arg5 harg5 arg6 harg6 arg7 harg7 arg8 harg8 arg9 harg9 arg10 harg10 hc0 hc1 x0 x1 x2 x3 x4 x5 = updR i x2 x3 x4 (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S512x4) hz, View.readCov_unit_zero (S := S512x4) _ hz]
  simp only [View.readAt_eq_ld, harg4.read_unread, harg5.read_unread, harg6.read_unread,
    View.ld_unit_zero (S := S1x512x1) hz3, View.ld_unit_zero (S := S1x1024x1024) hz3,
    View.ld_unit_zero (S := S1024x6) hz]

theorem sout_B_0 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) :
    sout0_B_0 c i arg2 harg2 arg3 harg3 arg4 harg4 arg5 harg5 arg6 harg6 arg7 harg7 arg8 harg8 arg9 harg9 arg10 harg10 hc0 hc1 x0 x1 x2 x3 x4 x5 xs0 xs1 = updL i x1 x3 x4 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero hz]
  simp only [View.readAt_eq_ld, harg3.read_unread, harg5.read_unread, harg6.read_unread, harg9.read_unread,
    View.ld_unit_zero (S := S1x512x1) hz3, View.ld_unit_zero (S := S1x1024x1024) hz3,
    View.ld_unit_zero (S := S1024x6) hz, View.ld_unit_zero (S := S512x4) hz]

theorem sout_B_1 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : ¬cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) :
    sout0_B_1 c i arg2 harg2 arg3 harg3 arg4 harg4 arg5 harg5 arg6 harg6 arg7 harg7 arg8 harg8 arg9 harg9 arg10 harg10 hc0 hc1 x0 x1 x2 x3 x4 x5 xs0 xs1 = updR i x2 x3 x4 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 x5 xs0 xs1)]
  unfold kernelRun0_B
  dsimp only
  sl_unfold_words
  rw [View.canon_unit_zero hz]
  simp only [View.readAt_eq_ld, harg4.read_unread, harg5.read_unread, harg6.read_unread, harg10.read_unread,
    View.ld_unit_zero (S := S1x512x1) hz3, View.ld_unit_zero (S := S1x1024x1024) hz3,
    View.ld_unit_zero (S := S1024x6) hz, View.ld_unit_zero (S := S512x4) hz]

theorem sout_C_0 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) :
    sout0_C_0 c i arg2 harg2 arg3 harg3 arg4 harg4 arg5 harg5 arg6 harg6 arg7 harg7 arg8 harg8 arg9 harg9 arg10 harg10 hc0 hc1 x0 x1 x2 x3 x4 x5 xs0 xs1 = updL i x1 x3 x4 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [View.readAt_eq_ld, harg3.read_unread, harg5.read_unread, harg6.read_unread, harg9.read_unread,
    View.ld_unit_zero (S := S1x512x1) hz3, View.ld_unit_zero (S := S1x1024x1024) hz3,
    View.ld_unit_zero (S := S1024x6) hz, View.ld_unit_zero (S := S512x4) hz]

theorem sout_C_1 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) :
    sout0_C_1 c i arg2 harg2 arg3 harg3 arg4 harg4 arg5 harg5 arg6 harg6 arg7 harg7 arg8 harg8 arg9 harg9 arg10 harg10 hc0 hc1 x0 x1 x2 x3 x4 x5 xs0 xs1 = updR i x2 x3 x4 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz]
  simp only [View.readAt_eq_ld, harg4.read_unread, harg5.read_unread, harg6.read_unread, harg10.read_unread,
    View.ld_unit_zero (S := S1x512x1) hz3, View.ld_unit_zero (S := S1x1024x1024) hz3,
    View.ld_unit_zero (S := S1024x6) hz, View.ld_unit_zero (S := S512x4) hz]

theorem out_C_6 (c : Dev nD) (i : grid0.Coords) (arg2 : Memref sig .tc .vmem S1x1x1024 .f32) (harg2 : arg2.IsWhole) (arg3 : Memref sig .tc .vmem S1x512x1 .i32) (harg3 : arg3.IsWhole) (arg4 : Memref sig .tc .vmem S1x512x1 .i32) (harg4 : arg4.IsWhole) (arg5 : Memref sig .tc .vmem S1x1024x1024 .f32) (harg5 : arg5.IsWhole) (arg6 : Memref sig .tc .vmem S1024x6 .f32) (harg6 : arg6.IsWhole) (arg7 : Memref sig .tc .vmem S2 .f32) (harg7 : arg7.IsWhole) (arg8 : Memref sig .tc .vmem S1x512x2 .f32) (harg8 : arg8.IsWhole) (arg9 : Memref sig .tc .vmem S512x4 .f32) (harg9 : arg9.IsWhole) (arg10 : Memref sig .tc .vmem S512x4 .f32) (harg10 : arg10.IsWhole) (hc0 : ¬cond0_0 i) (hc1 : cond0_1 i)
    (x0 : Vec F S1x1x1024 .f32) (x1 : Vec F S1x512x1 .i32) (x2 : Vec F S1x512x1 .i32) (x3 : Vec F S1x1024x1024 .f32) (x4 : Vec F S1024x6 .f32) (x5 : Vec F S2 .f32) (xs0 xs1 : Vec F S512x4 .f32) :
    out0_C_6 c i arg2 harg2 arg3 harg3 arg4 harg4 arg5 harg5 arg6 harg6 arg7 harg7 arg8 harg8 arg9 harg9 arg10 harg10 hc0 hc1 x0 x1 x2 x3 x4 x5 xs0 xs1 = k0_pay2 (k0_pay7 x4) x0 (updL i x1 x3 x4 xs0) (updR i x2 x3 x4 xs1) x5 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0 xs1)]
  unfold kernelRun0_C
  dsimp only
  sl_unfold_words
  rw [View.canon_unit_zero hz3, View.readCov_unit_zero (S := S512x4) _ hz, View.readCov_unit_zero (S := S512x4) _ hz]
  simp only [View.readAt_eq_ld, harg2.read_unread, harg3.read_unread, harg4.read_unread, harg5.read_unread,
    harg6.read_unread, harg7.read_unread, harg9.read_unread, harg10.read_unread,
    View.ld_unit_zero (S := S1x1x1024) hz3, View.ld_unit_zero (S := S1x512x1) hz3,
    View.ld_unit_zero (S := S1x1024x1024) hz3, View.ld_unit_zero (S := S1024x6) hz,
    View.ld_unit_zero (S := S512x4) hz, View.ld_unit_zero (S := S2) hz1]

end Cert.KernelIdeal.Val

end
-- ==== Proof.KIBlocks.lean ====
/-
  Each window's block at a grid point, read at an index, is the window's array read at the block's place.

  Point `t` is batch `t / 4` and sequence tile `t % 4`. The pooled row, the two index columns and the output block are
  selected by the batch alone; the hidden-state block by the batch and the tile (rows `1024·(t % 4) …`); the weight
  matrix and the bias are whole arrays.
-/
import proofs.«428122_j71476845740454_3_alg».proof.Proof.KIFrame
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The batch of a grid point. -/
def batchOf (t : Fin cfg0.N) : Fin 32 := ⟨t.val / 4, by have := t.isLt; have : cfg0.N = 128 := N_0; omega⟩

/-- The grid coordinates of point `t`: batch `t / 4`, tile `t % 4`. -/
theorem coords0 (t : Fin cfg0.N) : (grid0.coords t 0).val = t.val / 4 := by
  exact (by decide +kernel : ∀ t : Fin grid0.N, (grid0.coords t 0).val = t.val / 4) t
theorem coords1 (t : Fin cfg0.N) : (grid0.coords t 1).val = t.val % 4 := by
  exact (by decide +kernel : ∀ t : Fin grid0.N, (grid0.coords t 1).val = t.val % 4) t

/-- The index maps, decided once over the grid: the pooled row and the two index columns move with the batch alone,
    the hidden-state block with the batch and the tile, the weight matrix and the bias do not move. -/
theorem idx0_facts : ∀ t : Fin cfg0.N, win0_0.index t (0 : Fin 3) = t.val / 4 ∧ win0_0.index t (1 : Fin 3) = 0
    ∧ win0_0.index t (2 : Fin 3) = 0 :=
  (by decide +kernel : ∀ t : Fin grid0.N, _)
theorem idx1_facts : ∀ t : Fin cfg0.N, win0_1.index t (0 : Fin 3) = t.val / 4 ∧ win0_1.index t (1 : Fin 3) = 0
    ∧ win0_1.index t (2 : Fin 3) = 0 :=
  (by decide +kernel : ∀ t : Fin grid0.N, _)
theorem idx2_facts : ∀ t : Fin cfg0.N, win0_2.index t (0 : Fin 3) = t.val / 4 ∧ win0_2.index t (1 : Fin 3) = 0
    ∧ win0_2.index t (2 : Fin 3) = 0 :=
  (by decide +kernel : ∀ t : Fin grid0.N, _)
theorem idx3_facts : ∀ t : Fin cfg0.N, win0_3.index t (0 : Fin 3) = t.val / 4 ∧ win0_3.index t (1 : Fin 3) = t.val % 4
    ∧ win0_3.index t (2 : Fin 3) = 0 :=
  (by decide +kernel : ∀ t : Fin grid0.N, _)
theorem idx4_facts : ∀ t : Fin cfg0.N, win0_4.index t (0 : Fin 2) = 0 ∧ win0_4.index t (1 : Fin 2) = 0 :=
  (by decide +kernel : ∀ t : Fin grid0.N, _)
theorem idx5_facts : ∀ t : Fin cfg0.N, win0_5.index t (0 : Fin 1) = 0 :=
  (by decide +kernel : ∀ t : Fin grid0.N, _)

/-- The windows' blocks at a point, each at its literal type. -/
abbrev blk0 (c : Dev nD) (t : Fin cfg0.N) : Vec F S1x1x1024 .f32 := iblk m c 0 t
abbrev blk1 (c : Dev nD) (t : Fin cfg0.N) : Vec F S1x512x1 .i32 := iblk m c 1 t
abbrev blk2 (c : Dev nD) (t : Fin cfg0.N) : Vec F S1x512x1 .i32 := iblk m c 2 t
abbrev blk3 (c : Dev nD) (t : Fin cfg0.N) : Vec F S1x1024x1024 .f32 := iblk m c 3 t
abbrev blk4 (c : Dev nD) (t : Fin cfg0.N) : Vec F S1024x6 .f32 := iblk m c 4 t
abbrev blk5 (c : Dev nD) (t : Fin cfg0.N) : Vec F S2 .f32 := iblk m c 5 t

/-- The arrays the windows stage, as the region finds them, each at its literal type. -/
abbrev arr0 (c : Dev nD) : Vec F S32x1x1024 .f32 := V m c main_v7
abbrev arr1 (c : Dev nD) : Vec F S32x512x1 .i32 := V m c main_v3
abbrev arr2 (c : Dev nD) : Vec F S32x512x1 .i32 := V m c main_v6
abbrev arr3 (c : Dev nD) : Vec F S32x4096x1024 .f32 := V m c main_arg0
abbrev arr4 (c : Dev nD) : Vec F S1024x6 .f32 := V m c main_v14
abbrev arr5 (c : Dev nD) : Vec F S2 .f32 := V m c main_v15

theorem blk0_apply (c : Dev nD) (t : Fin cfg0.N) (d : Fin 1024) :
    blk0 m c t (ix3 0 0 d) = arr0 m c (ix3 (batchOf t) 0 d) := by
  obtain ⟨e0, e1, e2⟩ := idx0_facts t
  have h : ((cfg0.win 0).blk t).view.emb (ix3 (0 : Fin 1) (0 : Fin 1) d) = ix3 (batchOf t) (0 : Fin 1) d := by
    funext a
    apply Fin.ext
    match a with
    | ⟨0, _⟩ => show win0_0.index t (0 : Fin 3) * 1 + 1 * 0 = t.val / 4; omega
    | ⟨1, _⟩ => show win0_0.index t (1 : Fin 3) * 1 + 1 * 0 = 0; omega
    | ⟨2, _⟩ => show win0_0.index t (2 : Fin 3) * 1024 + 1 * d.val = d.val; omega
  exact congrArg (V m c main_v7) h
theorem blk1_apply (c : Dev nD) (t : Fin cfg0.N) (p : Fin 512) :
    blk1 m c t (ix3 0 p 0) = arr1 m c (ix3 (batchOf t) p 0) := by
  obtain ⟨e0, e1, e2⟩ := idx1_facts t
  have h : ((cfg0.win 1).blk t).view.emb (ix3 (0 : Fin 1) p (0 : Fin 1)) = ix3 (batchOf t) p (0 : Fin 1) := by
    funext a
    apply Fin.ext
    match a with
    | ⟨0, _⟩ => show win0_1.index t (0 : Fin 3) * 1 + 1 * 0 = t.val / 4; omega
    | ⟨1, _⟩ => show win0_1.index t (1 : Fin 3) * 512 + 1 * p.val = p.val; omega
    | ⟨2, _⟩ => show win0_1.index t (2 : Fin 3) * 1 + 1 * 0 = 0; omega
  exact congrArg (V m c main_v3) h
theorem blk2_apply (c : Dev nD) (t : Fin cfg0.N) (p : Fin 512) :
    blk2 m c t (ix3 0 p 0) = arr2 m c (ix3 (batchOf t) p 0) := by
  obtain ⟨e0, e1, e2⟩ := idx2_facts t
  have h : ((cfg0.win 2).blk t).view.emb (ix3 (0 : Fin 1) p (0 : Fin 1)) = ix3 (batchOf t) p (0 : Fin 1) := by
    funext a
    apply Fin.ext
    match a with
    | ⟨0, _⟩ => show win0_2.index t (0 : Fin 3) * 1 + 1 * 0 = t.val / 4; omega
    | ⟨1, _⟩ => show win0_2.index t (1 : Fin 3) * 512 + 1 * p.val = p.val; omega
    | ⟨2, _⟩ => show win0_2.index t (2 : Fin 3) * 1 + 1 * 0 = 0; omega
  exact congrArg (V m c main_v6) h
theorem blk3_apply (c : Dev nD) (t : Fin cfg0.N) (s d : Fin 1024) :
    blk3 m c t (ix3 0 s d) = arr3 m c (ix3 (batchOf t) ⟨(t.val % 4) * 1024 + s.val, by have := s.isLt; omega⟩ d) := by
  obtain ⟨e0, e1, e2⟩ := idx3_facts t
  have h : ((cfg0.win 3).blk t).view.emb (ix3 (0 : Fin 1) s d)
      = ix3 (batchOf t) (⟨(t.val % 4) * 1024 + s.val, by have := s.isLt; omega⟩ : Fin 4096) d := by
    funext a
    apply Fin.ext
    match a with
    | ⟨0, _⟩ => show win0_3.index t (0 : Fin 3) * 1 + 1 * 0 = t.val / 4; omega
    | ⟨1, _⟩ => show win0_3.index t (1 : Fin 3) * 1024 + 1 * s.val = (t.val % 4) * 1024 + s.val; omega
    | ⟨2, _⟩ => show win0_3.index t (2 : Fin 3) * 1024 + 1 * d.val = d.val; omega
  exact congrArg (V m c main_arg0) h
theorem blk4_apply (c : Dev nD) (t : Fin cfg0.N) (d : Fin 1024) (col : Fin 6) :
    blk4 m c t (ix2 d col) = arr4 m c (ix2 d col) := by
  obtain ⟨e0, e1⟩ := idx4_facts t
  have h : ((cfg0.win 4).blk t).view.emb (ix2 d col) = ix2 d col := by
    funext a
    apply Fin.ext
    match a with
    | ⟨0, _⟩ => show win0_4.index t (0 : Fin 2) * 1024 + 1 * d.val = d.val; omega
    | ⟨1, _⟩ => show win0_4.index t (1 : Fin 2) * 6 + 1 * col.val = col.val; omega
  exact congrArg (V m c main_v14) h
theorem blk5_apply (c : Dev nD) (t : Fin cfg0.N) (n : Fin 2) :
    blk5 m c t (ix1 n) = arr5 m c (ix1 n) := by
  have e0 := idx5_facts t
  have h : ((cfg0.win 5).blk t).view.emb (ix1 n) = ix1 n := by
    funext a
    apply Fin.ext
    match a with
    | ⟨0, _⟩ => show win0_5.index t (0 : Fin 1) * 2 + 1 * n.val = n.val; omega
  exact congrArg (V m c main_v15) h

end Cert.KernelIdeal.Val

end
-- ==== Proof.KIPayload.lean ====
/-
  The kernel's pure payloads read at an index, at the ideal values (extended reals: a change of float format is the
  identity, and 0 * x = 0, 1 * x = x for every x, so no finiteness is asked of any operand).

  At each of the four sequence tiles the kernel multiplies a one-hot matrix (row p hot at the column whose absolute
  position is the index word of pair p, when that position lies in the tile) with the tile's hidden rows projected
  through four columns of the weight matrix, and adds the product to an accumulator. Read at (p, c), the product is the
  projected hidden row the word names if the word lies in the tile, else zero.
-/
import proofs.«428122_j71476845740454_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

noncomputable section

namespace Cert.KernelIdeal.Pay

open Idealize.ShloMosaic Idealize.ShloMosaic.ValueIdx Cert.KernelIdeal Cert.KernelIdeal.Gen
open scoped BigOperators

/-! ## Words -/

/-- Column s of tile k carries the word s + k * 1024; below 2 ^ 32 nothing wraps, so it is the word w exactly when
    w, read as a natural number, is k * 1024 + s. -/
theorem tileWord_eq_iff (k s : ℕ) (hk : k < 4) (hs : s < 1024) (w : BitVec 32) :
    IntOp.addi (BitVec.ofNat 32 s) (Scalar.muli (BitVec.ofNat 32 k) 1024#32) = w ↔ w.toNat = k * 1024 + s := by
  have hv : (IntOp.addi (BitVec.ofNat 32 s) (Scalar.muli (BitVec.ofNat 32 k) 1024#32)).toNat = k * 1024 + s := by
    show (BitVec.ofNat 32 s + BitVec.ofNat 32 k * 1024#32).toNat = k * 1024 + s
    simp only [BitVec.toNat_add, BitVec.toNat_mul, BitVec.toNat_ofNat]
    omega
  constructor
  · intro h; rw [← h, hv]
  · intro h; exact BitVec.eq_of_toNat_eq (by rw [hv, h])

/-- The comparison bit, widened to 32 bits and converted to a float, is 1 where the words agree and 0 where they
    differ. -/
theorem indicator (x w : BitVec 32) :
    FloatOps.sitofp (F := Ideal) .f32 ((IntOp.cmpi .eq x w).setWidth 32) = if x = w then 1 else 0 := by
  show ((((IntOp.cmpi .eq x w).setWidth 32).toInt : ℝ) : EReal) = _
  by_cases h : x = w
  · have hb : (IntOp.cmpi .eq x w).setWidth 32 = 1#32 := by
      subst h; unfold IntOp.cmpi; simp
    rw [hb, if_pos h]; norm_num
  · have hb : (IntOp.cmpi .eq x w).setWidth 32 = 0#32 := by
      have : (x == w) = false := by simpa using h
      unfold IntOp.cmpi; rw [this]; rfl
    rw [hb, if_neg h]; norm_num

/-! ## The zeroing payloads -/

/-- The splat of the zero word reads 0 everywhere. -/
theorem pay3_apply (j : S512x4.Idx) : k0_pay3 (F := Ideal) j = 0 := by
  unfold k0_pay3
  rw [shapeCast_self]
  show Ideal.ofBits .f32 0x00000000#32 = 0
  exact Ideal.ofBits_zero_f32

theorem pay4_apply (j : S512x4.Idx) : k0_pay4 (F := Ideal) j = 0 := by
  unfold k0_pay4
  rw [shapeCast_self]
  show Ideal.ofBits .f32 0x00000000#32 = 0
  exact Ideal.ofBits_zero_f32

/-! ## The weight matrix and the projection -/

/-- The weight matrix narrowed to the matmul's format is the weight matrix. -/
theorem pay7_eq (v24 : Vec Ideal S1024x6 .f32) : k0_pay7 (F := Ideal) v24 = v24 := by
  unfold k0_pay7
  rw [shapeCast_self]
  rfl

/-- The projection's dimension numbers: rows of the hidden tile against rows of the weight columns. -/
abbrev D8 : DotDims S1024x1024 S1024x4 S1024x4 := dot_S1024x1024_S1024x4_S1024x4_1_0_0_1_n_n

/-- The projection's left operand is read at the output row … -/
theorem lhs8_0 (j : S1024x4.Idx) (q : D8.contr.Idx) : (D8.lhsIdx j q 0).val = (j 0).val := by
  unfold DotDims.lhsIdx
  rw [dif_neg (show ¬(0 : Fin S1024x1024.rank) ∈ D8.lhsBatch by decide),
    dif_pos (show (0 : Fin S1024x1024.rank) ∈ D8.lhsNonContracting by decide)]
  rfl
/-- … and the contraction position; -/
theorem lhs8_1 (j : S1024x4.Idx) (q : D8.contr.Idx) : (D8.lhsIdx j q 1).val = (q ⟨0, by decide⟩).val :=
  D8.lhsIdx_val_of_single rfl j q
/-- the right operand at the contraction position … -/
theorem rhs8_0 (j : S1024x4.Idx) (q : D8.contr.Idx) : (D8.rhsIdx j q 0).val = (q ⟨0, by decide⟩).val :=
  D8.rhsIdx_val_of_single rfl j q
/-- … and the output column. -/
theorem rhs8_1 (j : S1024x4.Idx) (q : D8.contr.Idx) : (D8.rhsIdx j q 1).val = (j 1).val := by
  unfold DotDims.rhsIdx
  rw [dif_neg (show ¬(1 : Fin S1024x4.rank) ∈ D8.rhsBatch by decide),
    dif_pos (show (1 : Fin S1024x4.rank) ∈ D8.rhsNonContracting by decide)]
  rfl

/-- The projection at (s, c): hidden row s of the tile against column 2 + c of the weight matrix. -/
theorem pay8_apply (v21 : Vec Ideal S1x1024x1024 .f32) (v24 : Vec Ideal S1024x6 .f32) (s : Fin 1024) (c : Fin 4) :
    k0_pay8 (F := Ideal) v21 v24 (ix2 s c)
      = ∑ d : Fin 1024, v21 (ix3 0 s d) * v24 (ix2 d ⟨2 + c.val, by omega⟩) := by
  unfold k0_pay8
  rw [pay7_eq]
  refine (Ideal.matmul_constant_zero_apply D8 none _ _ (ix2 s c)).trans ?_
  rw [← Equiv.sum_comp (contrEquiv1 D8 1024 rfl rfl).symm]
  refine Finset.sum_congr rfl fun d _ => ?_
  have hd := contrEquiv1_symm_val D8 1024 rfl rfl d
  have el : D8.lhsIdx (ix2 s c) ((contrEquiv1 D8 1024 rfl rfl).symm d) = ix2 s d := funext fun a => Fin.ext (by
    match a with
    | ⟨0, _⟩ => exact lhs8_0 _ _
    | ⟨1, _⟩ => exact (lhs8_1 _ _).trans hd)
  have er : D8.rhsIdx (ix2 s c) ((contrEquiv1 D8 1024 rfl rfl).symm d) = ix2 d c := funext fun a => Fin.ext (by
    match a with
    | ⟨0, _⟩ => exact (rhs8_0 _ _).trans hd
    | ⟨1, _⟩ => exact rhs8_1 _ _)
  rw [el, er]
  congr 1
  · exact shapeCast_1ab_ab_apply v21 _ s d
  · exact slice2_axis1_apply 2 v24 _ d c ⟨2 + c.val, by omega⟩ rfl

/-! ## The one-hot matrix -/

/-- The column words of tile k: column s carries s + k * 1024. -/
theorem pay5_apply (i : grid0.Coords) (s : Fin 1024) :
    k0_pay5 i (ix2 (0 : Fin 1) s) = IntOp.addi (BitVec.ofNat 32 s.val) (Scalar.muli (BitVec.ofNat 32 (i 1).val) 1024#32) := by
  unfold k0_pay5
  show IntOp.addi (iota .tc S1x1024 32 [1] _ (ix2 (0 : Fin 1) s)) _ = _
  rw [iota_single_apply]
  rfl

/-- The one-hot matrix at (p, s): one exactly where the index word of pair p is the absolute position k * 1024 + s of
    column s of tile k. -/
theorem pay6_apply (i : grid0.Coords) (v9 : Vec Ideal S1x512x1 .i32) (p : Fin 512) (s : Fin 1024) :
    k0_pay6 (F := Ideal) i v9 (ix2 p s)
      = if (v9 (ix3 0 p 0)).toNat = (i 1).val * 1024 + s.val then 1 else 0 := by
  have hk : (i 1).val < 4 := (i 1).isLt
  have e1 : broadcastTo S512x1024 (k0_pay5 i) broadcasts_S1x1024_S512x1024 (ix2 p s)
      = IntOp.addi (BitVec.ofNat 32 s.val) (Scalar.muli (BitVec.ofNat 32 (i 1).val) 1024#32) := by
    rw [broadcastTo_1b_ab_apply, pay5_apply]
  have e2 : broadcastTo S512x1024 (shapeCast S512x1 v9 shapeCasts_S1x512x1_S512x1) broadcasts_S512x1_S512x1024 (ix2 p s)
      = v9 (ix3 0 p 0) := by
    refine (broadcastTo_apply _ _ (ix2 p s) (ix2 p (0 : Fin 1)) fun a => ?_).trans ?_
    · match a with
      | ⟨0, _⟩ => show p.val = if (512 : ℕ) = 1 then 0 else p.val; rw [if_neg (by decide)]
      | ⟨1, _⟩ => show 0 = if (1 : ℕ) = 1 then 0 else s.val; rw [if_pos rfl]
    · exact shapeCast_1ab_ab_apply v9 _ p 0
  unfold k0_pay6
  show FloatOps.sitofp (F := Ideal) .f32 ((IntOp.cmpi .eq
      (broadcastTo S512x1024 (k0_pay5 i) broadcasts_S1x1024_S512x1024 (ix2 p s))
      (broadcastTo S512x1024 (shapeCast S512x1 v9 shapeCasts_S1x512x1_S512x1) broadcasts_S512x1_S512x1024 (ix2 p s))).setWidth 32) = _
  rw [indicator, e1, e2]
  by_cases h : (v9 (ix3 0 p 0)).toNat = (i 1).val * 1024 + s.val
  · rw [if_pos h, if_pos ((tileWord_eq_iff _ _ hk s.isLt _).mpr h)]
  · rw [if_neg h, if_neg (fun h' => h ((tileWord_eq_iff _ _ hk s.isLt _).mp h'))]

/-! ## One tile's contribution -/

/-- What one sequence tile adds to an accumulator entry: the projected hidden row the word names if the word lies in
    tile k, else 0. -/
def tileTerm (k : ℕ) (w : BitVec 32) (blk : Vec Ideal S1x1024x1024 .f32) (wall : Vec Ideal S1024x6 .f32) (col : Fin 6) : EReal :=
  if h : k * 1024 ≤ w.toNat ∧ w.toNat < k * 1024 + 1024 then
    ∑ d : Fin 1024, blk (ix3 0 ⟨w.toNat - k * 1024, by omega⟩ d) * wall (ix2 d col)
  else 0

/-- A sum against a one-hot row picks the named entry when the word lies in the tile; every other term is 0 * x = 0,
    whatever x is, and the hot one is 1 * x = x. Outside the tile every term vanishes. -/
theorem sum_onehot (k : ℕ) (w : BitVec 32) (g : Fin 1024 → EReal) :
    ∑ s : Fin 1024, (if w.toNat = k * 1024 + s.val then (1 : EReal) else 0) * g s
      = if h : k * 1024 ≤ w.toNat ∧ w.toNat < k * 1024 + 1024 then g ⟨w.toNat - k * 1024, by omega⟩ else 0 := by
  by_cases h : k * 1024 ≤ w.toNat ∧ w.toNat < k * 1024 + 1024
  · rw [dif_pos h, Finset.sum_eq_single (⟨w.toNat - k * 1024, by omega⟩ : Fin 1024)]
    · rw [if_pos (show w.toNat = k * 1024 + (w.toNat - k * 1024) by omega), one_mul]
    · intro s _ hs
      rw [if_neg ?_, zero_mul]
      intro h'
      apply hs
      apply Fin.ext
      show s.val = w.toNat - k * 1024
      omega
    · intro h'; exact absurd (Finset.mem_univ _) h'
  · rw [dif_neg h]
    refine Finset.sum_eq_zero fun s _ => ?_
    rw [if_neg ?_, zero_mul]
    intro h'
    apply h
    have := s.isLt
    omega

/-- The accumulating product's dimension numbers: rows of the one-hot matrix against rows of the projection. -/
abbrev D1 : DotDims S512x1024 S1024x4 S512x4 := dot_S512x1024_S1024x4_S512x4_1_0_0_1_n_n

/-- The one-hot operand is read at the output row … -/
theorem lhs1_0 (j : S512x4.Idx) (q : D1.contr.Idx) : (D1.lhsIdx j q 0).val = (j 0).val := by
  unfold DotDims.lhsIdx
  rw [dif_neg (show ¬(0 : Fin S512x1024.rank) ∈ D1.lhsBatch by decide),
    dif_pos (show (0 : Fin S512x1024.rank) ∈ D1.lhsNonContracting by decide)]
  rfl
/-- … and the contraction position; -/
theorem lhs1_1 (j : S512x4.Idx) (q : D1.contr.Idx) : (D1.lhsIdx j q 1).val = (q ⟨0, by decide⟩).val :=
  D1.lhsIdx_val_of_single rfl j q
/-- the projection at the contraction position … -/
theorem rhs1_0 (j : S512x4.Idx) (q : D1.contr.Idx) : (D1.rhsIdx j q 0).val = (q ⟨0, by decide⟩).val :=
  D1.rhsIdx_val_of_single rfl j q
/-- … and the output column. -/
theorem rhs1_1 (j : S512x4.Idx) (q : D1.contr.Idx) : (D1.rhsIdx j q 1).val = (j 1).val := by
  unfold DotDims.rhsIdx
  rw [dif_neg (show ¬(1 : Fin S1024x4.rank) ∈ D1.rhsBatch by decide),
    dif_pos (show (1 : Fin S1024x4.rank) ∈ D1.rhsNonContracting by decide)]
  rfl

/-- The accumulating payload over any two operands: the accumulator entry plus row p of the left against column c of
    the right. -/
theorem pay1_gen (A : FVec Ideal S512x1024 .f32) (B : FVec Ideal S1024x4 .f32) (v35 : Vec Ideal S512x4 .f32)
    (p : Fin 512) (c : Fin 4) :
    k0_pay1 (F := Ideal) A B v35 (ix2 p c) = v35 (ix2 p c) + ∑ s : Fin 1024, A (ix2 p s) * B (ix2 s c) := by
  unfold k0_pay1
  rw [shapeCast_self]
  refine (addf_apply _ _ _).trans ?_
  congr 1
  refine (Ideal.matmul_constant_zero_apply D1 none _ _ (ix2 p c)).trans ?_
  rw [← Equiv.sum_comp (contrEquiv1 D1 1024 rfl rfl).symm]
  refine Finset.sum_congr rfl fun s _ => ?_
  have hs := contrEquiv1_symm_val D1 1024 rfl rfl s
  have el : D1.lhsIdx (ix2 p c) ((contrEquiv1 D1 1024 rfl rfl).symm s) = ix2 p s := funext fun a => Fin.ext (by
    match a with
    | ⟨0, _⟩ => exact lhs1_0 _ _
    | ⟨1, _⟩ => exact (lhs1_1 _ _).trans hs)
  have er : D1.rhsIdx (ix2 p c) ((contrEquiv1 D1 1024 rfl rfl).symm s) = ix2 s c := funext fun a => Fin.ext (by
    match a with
    | ⟨0, _⟩ => exact (rhs1_0 _ _).trans hs
    | ⟨1, _⟩ => exact rhs1_1 _ _)
  rw [el, er]

/-- The accumulator update at (p, c): the old entry plus the tile's contribution for the word of pair p. -/
theorem pay1_apply (i : grid0.Coords) (v9 : Vec Ideal S1x512x1 .i32) (v21 : Vec Ideal S1x1024x1024 .f32)
    (v24 : Vec Ideal S1024x6 .f32) (v35 : Vec Ideal S512x4 .f32) (p : Fin 512) (c : Fin 4) :
    k0_pay1 (F := Ideal) (k0_pay6 i v9) (k0_pay8 v21 v24) v35 (ix2 p c)
      = v35 (ix2 p c) + tileTerm (i 1).val (v9 (ix3 0 p 0)) v21 v24 ⟨2 + c.val, by omega⟩ := by
  rw [pay1_gen]
  congr 1
  rw [Finset.sum_congr rfl (fun s _ => by rw [pay6_apply, pay8_apply])]
  unfold tileTerm
  exact sum_onehot (i 1).val (v9 (ix3 0 p 0))
    (fun s => ∑ d : Fin 1024, v21 (ix3 0 s d) * v24 (ix2 d ⟨2 + c.val, by omega⟩))

/-- The other accumulator's update is the same payload over the other index word. -/
theorem pay9_eq (i : grid0.Coords) (v7 : Vec Ideal S1x512x1 .i32) (v21 : Vec Ideal S1x1024x1024 .f32)
    (v24 : Vec Ideal S1024x6 .f32) (v29 : Vec Ideal S512x4 .f32) :
    k0_pay9 (F := Ideal) i v7 v21 v24 v29 = k0_pay1 (F := Ideal) (k0_pay6 i v7) (k0_pay8 v21 v24) v29 := rfl

theorem pay9_apply (i : grid0.Coords) (v7 : Vec Ideal S1x512x1 .i32) (v21 : Vec Ideal S1x1024x1024 .f32)
    (v24 : Vec Ideal S1024x6 .f32) (v29 : Vec Ideal S512x4 .f32) (p : Fin 512) (c : Fin 4) :
    k0_pay9 (F := Ideal) i v7 v21 v24 v29 (ix2 p c)
      = v29 (ix2 p c) + tileTerm (i 1).val (v7 (ix3 0 p 0)) v21 v24 ⟨2 + c.val, by omega⟩ := by
  rw [pay9_eq]
  exact pay1_apply i v7 v21 v24 v29 p c

/-! ## The store at the last tile -/

/-- The pooled product's dimension numbers: the pooled row against rows of the first two weight columns. -/
abbrev D2 : DotDims S1x1024 S1024x2 S1x2 := dot_S1x1024_S1024x2_S1x2_1_0_0_1_n_n

/-- The pooled row is read at the output row … -/
theorem lhs2_0 (j : S1x2.Idx) (q : D2.contr.Idx) : (D2.lhsIdx j q 0).val = (j 0).val := by
  unfold DotDims.lhsIdx
  rw [dif_neg (show ¬(0 : Fin S1x1024.rank) ∈ D2.lhsBatch by decide),
    dif_pos (show (0 : Fin S1x1024.rank) ∈ D2.lhsNonContracting by decide)]
  rfl
/-- … and the contraction position; -/
theorem lhs2_1 (j : S1x2.Idx) (q : D2.contr.Idx) : (D2.lhsIdx j q 1).val = (q ⟨0, by decide⟩).val :=
  D2.lhsIdx_val_of_single rfl j q
/-- the weight columns at the contraction position … -/
theorem rhs2_0 (j : S1x2.Idx) (q : D2.contr.Idx) : (D2.rhsIdx j q 0).val = (q ⟨0, by decide⟩).val :=
  D2.rhsIdx_val_of_single rfl j q
/-- … and the output column. -/
theorem rhs2_1 (j : S1x2.Idx) (q : D2.contr.Idx) : (D2.rhsIdx j q 1).val = (j 1).val := by
  unfold DotDims.rhsIdx
  rw [dif_neg (show ¬(1 : Fin S1024x2.rank) ∈ D2.rhsBatch by decide),
    dif_pos (show (1 : Fin S1024x2.rank) ∈ D2.rhsNonContracting by decide)]
  rfl

/-- The stored result at (0, p, n): the first accumulator's column n, plus the second accumulator's column 2 + n, plus
    the pooled row against weight column n, plus the bias. -/
theorem pay2_apply (v24 : Vec Ideal S1024x6 .f32) (v44 : Vec Ideal S1x1x1024 .f32) (v49 v50 : Vec Ideal S512x4 .f32)
    (v56 : Vec Ideal S2 .f32) (p : Fin 512) (n : Fin 2) :
    k0_pay2 (F := Ideal) (k0_pay7 v24) v44 v49 v50 v56 (ix3 0 p n)
      = ((v49 (ix2 p ⟨n.val, by omega⟩) + v50 (ix2 p ⟨2 + n.val, by omega⟩))
          + ∑ d : Fin 1024, v44 (ix3 0 0 d) * v24 (ix2 d ⟨n.val, by omega⟩)) + v56 (ix1 n) := by
  rw [pay7_eq]
  unfold k0_pay2
  refine (shapeCast_ab_1ab_apply _ _ (0 : Fin 1) p n).trans ?_
  refine (addf_apply _ _ _).trans ?_
  congr 1
  · refine (addf_apply _ _ _).trans ?_
    congr 1
    · refine (addf_apply _ _ _).trans ?_
      congr 1
      · exact slice2_axis1_apply 0 v49 _ p n ⟨n.val, by omega⟩ (Nat.zero_add _).symm
      · exact slice2_axis1_apply 2 v50 _ p n ⟨2 + n.val, by omega⟩ rfl
    · refine (broadcastTo_1b_ab_apply _ _ p n).trans ?_
      refine (Ideal.matmul_constant_zero_apply D2 none _ _ (ix2 (0 : Fin 1) n)).trans ?_
      rw [← Equiv.sum_comp (contrEquiv1 D2 1024 rfl rfl).symm]
      refine Finset.sum_congr rfl fun d _ => ?_
      have hd := contrEquiv1_symm_val D2 1024 rfl rfl d
      have el : D2.lhsIdx (ix2 (0 : Fin 1) n) ((contrEquiv1 D2 1024 rfl rfl).symm d) = ix2 (0 : Fin 1) d :=
        funext fun a => Fin.ext (by
          match a with
          | ⟨0, _⟩ => exact lhs2_0 _ _
          | ⟨1, _⟩ => exact (lhs2_1 _ _).trans hd)
      have er : D2.rhsIdx (ix2 (0 : Fin 1) n) ((contrEquiv1 D2 1024 rfl rfl).symm d) = ix2 d n :=
        funext fun a => Fin.ext (by
          match a with
          | ⟨0, _⟩ => exact (rhs2_0 _ _).trans hd
          | ⟨1, _⟩ => exact rhs2_1 _ _)
      rw [el, er]
      congr 1
      · exact shapeCast_1ab_ab_apply v44 _ (0 : Fin 1) d
      · exact slice2_axis1_apply 0 v24 _ d n ⟨n.val, by omega⟩ (Nat.zero_add _).symm
  · refine (broadcastTo_1b_ab_apply _ _ p n).trans ?_
    refine (shapeCast_a_1a_apply _ _ (0 : Fin 1) n).trans ?_
    rw [shapeCast_self]

end Cert.KernelIdeal.Pay

end
-- ==== Proof.Spec.lean ====
/-
  The function both programs compute, as one formula over the argument arrays.

  For batch `bi`, pair `p` and class `n` the score is
    ⟨hidden[bi, L], W[n, 1024 … 2047]⟩ + ⟨hidden[bi, R], W[n, 2048 … 3071]⟩ + ⟨pooled[bi], W[n, 0 … 1023]⟩ + (b[n] + extra[n]),
  where `L` and `R` are the two sequence positions the pair names and ⟨·,·⟩ is the sum of the 1024 products of
  a hidden row with a third of a weight row. Everything is read on the extended reals; the sums are finite sums
  in the commutative monoid `(EReal, +)`.
-/
import Idealize.ShloMosaic.PureOps.Ideal
import Idealize.ShloMosaic.Lib.ValueIdx

noncomputable section

namespace Cert.Spec

open Idealize.ShloMosaic Idealize.ShloMosaic.ValueIdx

/-- The sequence position a pair word names: its unsigned value (reduced into the axis, so that the
    function is total; for a word below 4096 it is the word). -/
def pos (w : BitVec 32) : Fin 4096 := ⟨w.toNat % 4096, Nat.mod_lt _ (by norm_num)⟩

theorem pos_val_of_lt (w : BitVec 32) (h : w.toNat < 4096) : (pos w).val = w.toNat := Nat.mod_eq_of_lt h

/-- Row `r` of batch `bi` of the hidden states against the `k`-th third of weight row `n`. -/
def rowdot (hid : FVec Ideal ⟨3, ![32, 4096, 1024]⟩ .f32) (W : FVec Ideal ⟨2, ![2, 3072]⟩ .f32)
    (bi : Fin 32) (r : Fin 4096) (n : Fin 2) (k : Fin 3) : EReal :=
  ∑ d : Fin 1024, hid (ix3 bi r d) * W (ix2 n ⟨k.val * 1024 + d.val, by have := k.isLt; have := d.isLt; omega⟩)

/-- The pooled state of batch `bi` against the first third of weight row `n`. -/
def pooldot (pooled : FVec Ideal ⟨2, ![32, 1024]⟩ .f32) (W : FVec Ideal ⟨2, ![2, 3072]⟩ .f32)
    (bi : Fin 32) (n : Fin 2) : EReal :=
  ∑ d : Fin 1024, pooled (ix2 bi d) * W (ix2 n ⟨d.val, by have := d.isLt; omega⟩)

/-- The score of pair `p` of batch `bi` for class `n`. -/
def G (hid : FVec Ideal ⟨3, ![32, 4096, 1024]⟩ .f32) (pooled : FVec Ideal ⟨2, ![32, 1024]⟩ .f32)
    (pairs : IVec ⟨3, ![32, 512, 2]⟩ 32) (W : FVec Ideal ⟨2, ![2, 3072]⟩ .f32)
    (b eb : FVec Ideal ⟨1, ![2]⟩ .f32) (bi : Fin 32) (p : Fin 512) (n : Fin 2) : EReal :=
  ((rowdot hid W bi (pos (pairs (ix3 bi p 0))) n 1 + rowdot hid W bi (pos (pairs (ix3 bi p 1))) n 2)
      + pooldot pooled W bi n) + (b (ix1 n) + eb (ix1 n))

/-- The same as a whole array of scores. -/
def Gfun (hid : FVec Ideal ⟨3, ![32, 4096, 1024]⟩ .f32) (pooled : FVec Ideal ⟨2, ![32, 1024]⟩ .f32)
    (pairs : IVec ⟨3, ![32, 512, 2]⟩ 32) (W : FVec Ideal ⟨2, ![2, 3072]⟩ .f32)
    (b eb : FVec Ideal ⟨1, ![2]⟩ .f32) : FVec Ideal ⟨3, ![32, 512, 2]⟩ .f32 :=
  fun j => G hid pooled pairs W b eb ⟨(j 0).val, (j 0).isLt⟩ ⟨(j 1).val, (j 1).isLt⟩ ⟨(j 2).val, (j 2).isLt⟩

theorem Gfun_ix3 (hid : FVec Ideal ⟨3, ![32, 4096, 1024]⟩ .f32) (pooled : FVec Ideal ⟨2, ![32, 1024]⟩ .f32)
    (pairs : IVec ⟨3, ![32, 512, 2]⟩ 32) (W : FVec Ideal ⟨2, ![2, 3072]⟩ .f32)
    (b eb : FVec Ideal ⟨1, ![2]⟩ .f32) (bi : Fin 32) (p : Fin 512) (n : Fin 2) :
    Gfun hid pooled pairs W b eb (ix3 bi p n) = G hid pooled pairs W b eb bi p n := rfl

end Cert.Spec

end
-- ==== Proof.KIAccum.lean ====
/-
  What the two accumulators hold after each grid point.

  Fix a batch `b`, a pair `p` and a column `col` of the packed weight matrix. Tile `k` adds to the accumulator entry
  the product of the one-hot row of the pair's index word `w` with the tile's projected rows: that is the projected
  row `w` (the sum over `d` of hidden[b, w, d] · wall[d, col]) if `w` lies in tile `k`, and `0` otherwise. After
  point `4·b + k` the entry is therefore the ordered sum `(((0 + T 0) + T 1) + …) + T k` of these terms, and after
  the last tile, a word below 4096 lying in exactly one tile, it is the projected row itself.
-/
import proofs.«428122_j71476845740454_3_alg».proof.Proof.KIPieces
import proofs.«428122_j71476845740454_3_alg».proof.Proof.KIBlocks
import proofs.«428122_j71476845740454_3_alg».proof.Proof.KIPayload
import proofs.«428122_j71476845740454_3_alg».proof.Proof.Spec

set_option maxRecDepth 16384

noncomputable section

namespace Cert.KernelIdeal.Val

open Cert.KernelIdeal Cert.KernelIdeal.Gen Cert.KernelIdeal.Fr Cert.KernelIdeal.Pay
open Idealize.ShloMosaic Idealize.ShloMosaic.TcCoe Idealize.ShloMosaic.ValueIdx Idealize.SL.Sem

variable (m : (ℓ : Loc nD τ sig) → Buf (Elt Ideal) ℓ) (c : Dev nD)

/-- The projected hidden row the word `w` names, in batch `b`, against column `col` of the packed weights. -/
def rowSum (b : Fin 32) (w : BitVec 32) (col : Fin 6) : EReal :=
  ∑ d : Fin 1024, arr3 m c (ix3 b (Cert.Spec.pos w) d) * arr4 m c (ix2 d col)

/-- What tile `k` adds: the projected row if the word lies in the tile, else nothing. -/
def rowTerm (b : Fin 32) (w : BitVec 32) (col : Fin 6) (k : ℕ) : EReal :=
  if k * 1024 ≤ w.toNat ∧ w.toNat < k * 1024 + 1024 then rowSum m c b w col else 0

/-- The ordered running sum `((0 + T 0) + T 1) + … + T k`. -/
def accAt (T : ℕ → EReal) : ℕ → EReal
  | 0 => 0 + T 0
  | k + 1 => accAt T k + T (k + 1)

/-- A word below 4096 lies in exactly one of the four tiles, so the running sum after the last tile is the row. -/
theorem accAt_three (b : Fin 32) (w : BitVec 32) (hw : w.toNat < 4096) (col : Fin 6) :
    accAt (rowTerm m c b w col) 3 = rowSum m c b w col := by
  unfold accAt accAt accAt accAt rowTerm
  have h4 : w.toNat / 1024 = 0 ∨ w.toNat / 1024 = 1 ∨ w.toNat / 1024 = 2 ∨ w.toNat / 1024 = 3 := by omega
  rcases h4 with h | h | h | h
  · rw [if_pos (by omega), if_neg (by omega), if_neg (by omega), if_neg (by omega)]; simp only [zero_add, add_zero]
  · rw [if_neg (by omega), if_pos (by omega), if_neg (by omega), if_neg (by omega)]; simp only [zero_add, add_zero]
  · rw [if_neg (by omega), if_neg (by omega), if_pos (by omega), if_neg (by omega)]; simp only [zero_add, add_zero]
  · rw [if_neg (by omega), if_neg (by omega), if_neg (by omega), if_pos (by omega)]; simp only [zero_add, add_zero]

/-- The tile's one-hot selection, read through the windows' blocks, is the tile's term of the arrays. -/
theorem tileTerm_eq (t : Fin cfg0.N) (w : BitVec 32) (hw : w.toNat < 4096) (col : Fin 6) :
    tileTerm (t.val % 4) w (blk3 m c t) (blk4 m c t) col = rowTerm m c (batchOf t) w col (t.val % 4) := by
  unfold tileTerm rowTerm
  by_cases h : t.val % 4 * 1024 ≤ w.toNat ∧ w.toNat < t.val % 4 * 1024 + 1024
  · rw [dif_pos h, if_pos h]
    unfold rowSum
    refine Finset.sum_congr rfl fun d _ => ?_
    rw [blk3_apply, blk4_apply]
    have hrow : (⟨t.val % 4 * 1024 + (w.toNat - t.val % 4 * 1024), by omega⟩ : Fin 4096) = Cert.Spec.pos w :=
      Fin.ext (by rw [Cert.Spec.pos_val_of_lt w hw]; show t.val % 4 * 1024 + (w.toNat - t.val % 4 * 1024) = w.toNat; omega)
    exact congrArg (fun r => arr3 m c (ix3 (batchOf t) r d) * arr4 m c (ix2 d col)) hrow
  · rw [dif_neg h, if_neg h]

/-- The pair's two index words, as the index windows' arrays hold them. -/
abbrev wordL (b : Fin 32) (p : Fin 512) : BitVec 32 := arr1 m c (ix3 b p 0)
abbrev wordR (b : Fin 32) (p : Fin 512) : BitVec 32 := arr2 m c (ix3 b p 0)

/-- A point that is not the first tile of its batch has the batch of the point before it. -/
theorem batchOf_pred (n : ℕ) (h : n < cfg0.N) (h' : n - 1 < cfg0.N) (h0 : ¬ n % 4 = 0) :
    batchOf ⟨n - 1, h'⟩ = batchOf ⟨n, h⟩ := Fin.ext (by show (n - 1) / 4 = n / 4; omega)

/-- One tile's update of the left accumulator, past the first tile: the running sum grows by the tile's term. -/
theorem stepL (hL : ∀ b p, (wordL m c b p).toNat < 4096) (t : Fin cfg0.N) (h0 : ¬ t.val % 4 = 0) (hlt : t.val - 1 < cfg0.N)
    (ihL : ∀ (p : Fin 512) (col : Fin 4), ((outsAt0 m c (t.val - 1) hlt).2.1 : Vec Ideal S512x4 .f32) (ix2 p col)
        = accAt (rowTerm m c (batchOf ⟨t.val - 1, hlt⟩) (wordL m c (batchOf ⟨t.val - 1, hlt⟩) p) ⟨2 + col.val, by omega⟩) ((t.val - 1) % 4))
    (p : Fin 512) (col : Fin 4) :
    k0_pay9 (F := Ideal) (grid0.coords t) (blk1 m c t) (blk3 m c t) (blk4 m c t) ((outsAt0 m c (t.val - 1) hlt).2.1) (ix2 p col)
      = accAt (rowTerm m c (batchOf t) (wordL m c (batchOf t) p) ⟨2 + col.val, by omega⟩) (t.val % 4) := by
  obtain ⟨k, hk1, hk2⟩ : ∃ k, t.val % 4 = k + 1 ∧ (t.val - 1) % 4 = k := ⟨t.val % 4 - 1, by omega, by omega⟩
  have hb : batchOf ⟨t.val - 1, hlt⟩ = batchOf t := batchOf_pred t.val t.isLt hlt h0
  have tt := tileTerm_eq m c t (wordL m c (batchOf t) p) (hL _ _) ⟨2 + col.val, by omega⟩
  rw [pay9_apply, coords1, blk1_apply]
  rw [tt, ihL p col, hb, hk2, hk1]
  rfl

/-- The same for the right accumulator. -/
theorem stepR (hR : ∀ b p, (wordR m c b p).toNat < 4096) (t : Fin cfg0.N) (h0 : ¬ t.val % 4 = 0) (hlt : t.val - 1 < cfg0.N)
    (ihR : ∀ (p : Fin 512) (col : Fin 4), ((outsAt0 m c (t.val - 1) hlt).2.2 : Vec Ideal S512x4 .f32) (ix2 p col)
        = accAt (rowTerm m c (batchOf ⟨t.val - 1, hlt⟩) (wordR m c (batchOf ⟨t.val - 1, hlt⟩) p) ⟨2 + col.val, by omega⟩) ((t.val - 1) % 4))
    (p : Fin 512) (col : Fin 4) :
    k0_pay1 (F := Ideal) (k0_pay6 (grid0.coords t) (blk2 m c t)) (k0_pay8 (blk3 m c t) (blk4 m c t)) ((outsAt0 m c (t.val - 1) hlt).2.2) (ix2 p col)
      = accAt (rowTerm m c (batchOf t) (wordR m c (batchOf t) p) ⟨2 + col.val, by omega⟩) (t.val % 4) := by
  obtain ⟨k, hk1, hk2⟩ : ∃ k, t.val % 4 = k + 1 ∧ (t.val - 1) % 4 = k := ⟨t.val % 4 - 1, by omega, by omega⟩
  have hb : batchOf ⟨t.val - 1, hlt⟩ = batchOf t := batchOf_pred t.val t.isLt hlt h0
  have tt := tileTerm_eq m c t (wordR m c (batchOf t) p) (hR _ _) ⟨2 + col.val, by omega⟩
  rw [pay1_apply, coords1, blk2_apply]
  rw [tt, ihR p col, hb, hk2, hk1]
  rfl

/-- THE ACCUMULATION: after point `n` (batch `n / 4`, tile `n % 4`) each accumulator entry is the ordered running sum of
    the tile terms of its index word up to that tile — by induction on the point. -/
theorem acc_eq (hL : ∀ b p, (wordL m c b p).toNat < 4096) (hR : ∀ b p, (wordR m c b p).toNat < 4096) (n : ℕ) :
    ∀ h : n < cfg0.N,
      (∀ (p : Fin 512) (col : Fin 4), ((outsAt0 m c n h).2.1 : Vec Ideal S512x4 .f32) (ix2 p col)
          = accAt (rowTerm m c (batchOf ⟨n, h⟩) (wordL m c (batchOf ⟨n, h⟩) p) ⟨2 + col.val, by omega⟩) (n % 4))
      ∧ (∀ (p : Fin 512) (col : Fin 4), ((outsAt0 m c n h).2.2 : Vec Ideal S512x4 .f32) (ix2 p col)
          = accAt (rowTerm m c (batchOf ⟨n, h⟩) (wordR m c (batchOf ⟨n, h⟩) p) ⟨2 + col.val, by omega⟩) (n % 4)) := by
  induction n using Nat.strong_induction_on with
  | _ n ih =>
    intro h
    have hN : cfg0.N = 128 := N_0
    by_cases h0 : n % 4 = 0
    · have h1 : ¬ n % 4 = 3 := by omega
      have e := outsAt0_A m c ⟨n, h⟩ h0 h1
      dsimp only at e
      rw [e]; dsimp only
      rw [sout_A_0, sout_A_1]
      constructor
      · intro p col
        show k0_pay9 (F := Ideal) (grid0.coords ⟨n, h⟩) (blk1 m c ⟨n, h⟩) (blk3 m c ⟨n, h⟩) (blk4 m c ⟨n, h⟩) (k0_pay3 (F := Ideal)) (ix2 p col) = _
        have tt := tileTerm_eq m c ⟨n, h⟩ (wordL m c (batchOf ⟨n, h⟩) p) (hL _ _) ⟨2 + col.val, by omega⟩
        dsimp only at tt
        rw [pay9_apply, pay3_apply, coords1, blk1_apply]
        dsimp only
        rw [tt, h0]
        rfl
      · intro p col
        show k0_pay1 (F := Ideal) (k0_pay6 (grid0.coords ⟨n, h⟩) (blk2 m c ⟨n, h⟩)) (k0_pay8 (blk3 m c ⟨n, h⟩) (blk4 m c ⟨n, h⟩)) (k0_pay4 (F := Ideal)) (ix2 p col) = _
        have tt := tileTerm_eq m c ⟨n, h⟩ (wordR m c (batchOf ⟨n, h⟩) p) (hR _ _) ⟨2 + col.val, by omega⟩
        dsimp only at tt
        rw [pay1_apply, pay4_apply, coords1, blk2_apply]
        dsimp only
        rw [tt, h0]
        rfl
    · have hlt : n - 1 < cfg0.N := by omega
      obtain ⟨ihL, ihR⟩ := ih (n - 1) (by omega) hlt
      by_cases h1 : n % 4 = 3
      · have e := outsAt0_C m c ⟨n, h⟩ h0 h1
        dsimp only at e
        rw [e]; dsimp only
        rw [sout_C_0, sout_C_1]
        exact ⟨stepL m c hL ⟨n, h⟩ h0 hlt ihL, stepR m c hR ⟨n, h⟩ h0 hlt ihR⟩
      · have e := outsAt0_B m c ⟨n, h⟩ h0 h1
        dsimp only at e
        rw [e]; dsimp only
        rw [sout_B_0, sout_B_1]
        exact ⟨stepL m c hL ⟨n, h⟩ h0 hlt ihL, stepR m c hR ⟨n, h⟩ h0 hlt ihR⟩

/-- THE OUTPUT BLOCK: at the last tile of batch `b` the stored block's entry `(p, n)` is the left word's projected
    row against weight column `2 + n`, plus the right word's against column `2 + (2 + n)`, plus the pooled row against
    column `n`, plus the bias. -/
theorem out_last (hL : ∀ b p, (wordL m c b p).toNat < 4096) (hR : ∀ b p, (wordR m c b p).toNat < 4096)
    (t : Fin cfg0.N) (h3 : t.val % 4 = 3) (p : Fin 512) (n : Fin 2) :
    ((outsAt0 m c t.val t.isLt).1 : Vec Ideal S1x512x2 .f32) (ix3 0 p n)
      = ((rowSum m c (batchOf t) (wordL m c (batchOf t) p) ⟨2 + n.val, by omega⟩
            + rowSum m c (batchOf t) (wordR m c (batchOf t) p) ⟨2 + (2 + n.val), by omega⟩)
          + ∑ d : Fin 1024, arr0 m c (ix3 (batchOf t) 0 d) * arr4 m c (ix2 d ⟨n.val, by omega⟩))
        + arr5 m c (ix1 n) := by
  have hN : cfg0.N = 128 := N_0
  have h0 : ¬ t.val % 4 = 0 := by omega
  have hlt : t.val - 1 < cfg0.N := by omega
  obtain ⟨ihL, ihR⟩ := acc_eq m c hL hR (t.val - 1) hlt
  have sL := stepL m c hL t h0 hlt ihL p ⟨n.val, by omega⟩
  have sR := stepR m c hR t h0 hlt ihR p ⟨2 + n.val, by omega⟩
  rw [h3, accAt_three m c _ _ (hL _ _)] at sL
  rw [h3, accAt_three m c _ _ (hR _ _)] at sR
  dsimp only at sL sR
  have e := outsAt0_C m c t h0 h3
  rw [e]; dsimp only
  rw [out_C_6]
  show k0_pay2 (F := Ideal) (k0_pay7 (blk4 m c t)) (blk0 m c t)
      (k0_pay9 (F := Ideal) (grid0.coords t) (blk1 m c t) (blk3 m c t) (blk4 m c t) ((outsAt0 m c (t.val - 1) hlt).2.1))
      (k0_pay1 (F := Ideal) (k0_pay6 (grid0.coords t) (blk2 m c t)) (k0_pay8 (blk3 m c t) (blk4 m c t)) ((outsAt0 m c (t.val - 1) hlt).2.2))
      (blk5 m c t) (ix3 0 p n) = _
  rw [pay2_apply, blk5_apply]
  have hp : (∑ d : Fin 1024, blk0 m c t (ix3 0 0 d) * blk4 m c t (ix2 d ⟨n.val, by omega⟩))
      = ∑ d : Fin 1024, arr0 m c (ix3 (batchOf t) 0 d) * arr4 m c (ix2 d ⟨n.val, by omega⟩) :=
    Finset.sum_congr rfl fun d _ => by rw [blk0_apply, blk4_apply]
  rw [hp, sL, sR]

end Cert.KernelIdeal.Val

end
-- ==== Proof.LibNary3.lean ====
/-
  The result of an operation over a LITERAL family of three operand references.

  An operation over a family `xs : Fin n → reference` writes, at its result reference, its function applied to the
  family of the operands' contents `fun k => V (xs k)`. When the family is the literal triple `![x, a, b]`, the
  operand contents are read here at the three references themselves — the family `V x, V a, V b` built by
  `Fin.cons` — so that a rewriting of a straight line of operations can go on through each operand: under the binder
  the reference `![x, a, b] k` is no literal. Stated once for rewriting and once, the result reference un-indexed,
  for simplification; the same pair as the library's lemma for a literal family of four.
-/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- An operation over the literal family `![x, a, b]` writes, at its result reference, its function at the three
    operands' contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, the form a simplification pass fires on. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3

end
-- ==== Proof.KIHostVal.lean ====
/-
  The arrays the program computes on the host before its one region, each read at an index.

  Before the region the program clamps the pair indices into [0, 4095] and splits them into two index columns,
  views the pooled state as a [32,1,1024] array, cuts the [2,3072] weight matrix into its three [2,1024] thirds,
  transposes each and joins them along the columns into a [1024,6] matrix, and adds the two biases. Each of these
  arrays is here an explicit function of the launch contents of the argument arrays: entry by entry, which entry
  of which argument it holds.
-/
import proofs.«428122_j71476845740454_3_alg».proof.Proof.KIHost
import proofs.«428122_j71476845740454_3_alg».proof.Proof.LibNary3
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.HostVal

open Idealize.ShloMosaic Idealize.ShloMosaic.ValueIdx Idealize.ShloMosaic.TcCoe Idealize.SL.Sem
open Cert.KernelIdeal Cert.KernelIdeal.Gen Cert.KernelIdeal.Fr

variable (m : (ℓ : Loc nD τ sig) → Buf (Elt Ideal) ℓ) (c : Dev nD)

/-! ## The argument arrays as launched, at their value types -/

/-- The pooled state [32,1024] as launched. -/
abbrev a1 : FVec Ideal S32x1024 .f32 := m ((c : Thread nD τ).loc main_arg1)
/-- The pair indices [32,512,2] as launched. -/
abbrev a2 : IVec S32x512x2 32 := m ((c : Thread nD τ).loc main_arg2)
/-- The weight matrix [2,3072] as launched. -/
abbrev a3 : FVec Ideal S2x3072 .f32 := m ((c : Thread nD τ).loc main_arg3)
/-- The bias [2] as launched. -/
abbrev a4 : FVec Ideal S2 .f32 := m ((c : Thread nD τ).loc main_arg4)
/-- The extra bias [2] as launched. -/
abbrev a5 : FVec Ideal S2 .f32 := m ((c : Thread nD τ).loc main_arg5)

/-! ## The clamp of a pair index -/

/-- The clamp of a signed 32-bit word into [0, 4095]: the signed maximum of 0 and the word, then the signed minimum of
    4095 and that, the two scalar operations the program applies entry by entry. -/
def clampW (w : BitVec 32) : BitVec 32 := IntOp.minsi 4095#32 (IntOp.maxsi 0#32 w)

/-- A word that already lies in [0, 4095] is its own clamp. -/
theorem clampW_of_lt (w : BitVec 32) (h : w.toNat < 4096) : clampW w = w := by
  unfold clampW IntOp.minsi IntOp.maxsi
  have e := BitVec.toInt_eq_toNat_cond w
  have h0 : ¬ w.slt 0#32 := by
    rw [BitVec.slt_iff_toInt_lt]
    simp only [BitVec.toInt_zero]
    omega
  rw [if_neg h0]
  have h1 : ¬ (4095#32).slt w := by
    rw [BitVec.slt_iff_toInt_lt]
    have : (4095#32 : BitVec 32).toInt = 4095 := by decide
    omega
  rw [if_neg h1]

/-! ## The biases, the pooled state and the two index columns -/

/-- The sum of the two biases, entry by entry. -/
theorem V_v15 (n : Fin 2) :
    (V m c main_v15 : S2.Idx → EReal) (ix1 n) = a4 m c (ix1 n) + a5 m c (ix1 n) := by
  have e : (V m c main_v15 : S2.Idx → EReal) = addf (F := Ideal) (a4 m c) (a5 m c) := by
    dsimp only [V]
    simp only [hostOps0, hostOps0_1, hostOps0_2, List.flatten_cons, List.flatten_nil, List.append_nil, List.cons_append, List.nil_append]
    after_results
  rw [e]
  rfl

/-- The pooled state viewed as [32,1,1024]: entry (b, 0, d) is entry (b, d) of the launched array. -/
theorem V_v7 (bi : Fin 32) (d : Fin 1024) :
    (V m c main_v7 : S32x1x1024.Idx → EReal) (ix3 bi 0 d) = a1 m c (ix2 bi d) := by
  have e : (V m c main_v7 : S32x1x1024.Idx → EReal) = shapeCast S32x1x1024 (a1 m c) shapeCasts_S32x1024_S32x1x1024 := by
    dsimp only [V]
    simp only [hostOps0, hostOps0_1, hostOps0_2, List.flatten_cons, List.flatten_nil, List.append_nil, List.cons_append, List.nil_append]
    after_results
    rfl
  rw [e]
  refine shapeCast_apply _ _ _ _ ?_
  rw [Shape.rowMajor_val_two, Shape.rowMajor_val_three]
  show bi.val * 1024 + d.val = (bi.val * 1 + 0) * 1024 + d.val
  omega

/-- The clamped pair indices [32,512,2], before the split into columns: every entry of the launched array clamped. -/
theorem V_v0 : (V m c main_v0 : S32x512x2.Idx → BitVec 32) = fun i => clampW (a2 m c i) := by
  dsimp only [V]
  simp only [hostOps0, hostOps0_1, hostOps0_2, List.flatten_cons, List.flatten_nil, List.append_nil, List.cons_append, List.nil_append]
  after_results
  rfl

/-- The first index column [32,512,1]: entry (b, p, 0) is the clamp of the launched pair entry (b, p, 0). -/
theorem V_v3 (bi : Fin 32) (p : Fin 512) :
    (V m c main_v3 : S32x512x1.Idx → BitVec 32) (ix3 bi p 0) = clampW (a2 m c (ix3 bi p 0)) := by
  have e : (V m c main_v3 : S32x512x1.Idx → BitVec 32)
      = shapeCast S32x512x1 (shapeCast S32x512 (extractStridedSlice S32x512x1 ![0, 0, 0] (V m c main_v0 : S32x512x2.Idx → BitVec 32)
          slices_S32x512x2_S32x512x1_0_0_0) shapeCasts_S32x512x1_S32x512) shapeCasts_S32x512_S32x512x1 := by
    dsimp only [V]
    simp only [hostOps0, hostOps0_1, hostOps0_2, List.flatten_cons, List.flatten_nil, List.append_nil, List.cons_append, List.nil_append]
    after_results
    rfl
  rw [e, V_v0, shapeCast_shapeCast]
  exact extractStridedSlice_apply _ _ _ _ (ix3 bi p (0 : Fin 2)) fun a => by
    match a with
    | ⟨0, _⟩ => exact (Nat.zero_add _).symm
    | ⟨1, _⟩ => exact (Nat.zero_add _).symm
    | ⟨2, _⟩ => rfl

/-- The second index column [32,512,1]: entry (b, p, 0) is the clamp of the launched pair entry (b, p, 1). -/
theorem V_v6 (bi : Fin 32) (p : Fin 512) :
    (V m c main_v6 : S32x512x1.Idx → BitVec 32) (ix3 bi p 0) = clampW (a2 m c (ix3 bi p 1)) := by
  have e : (V m c main_v6 : S32x512x1.Idx → BitVec 32)
      = shapeCast S32x512x1 (shapeCast S32x512 (extractStridedSlice S32x512x1 ![0, 0, 1] (V m c main_v0 : S32x512x2.Idx → BitVec 32)
          slices_S32x512x2_S32x512x1_0_0_1) shapeCasts_S32x512x1_S32x512) shapeCasts_S32x512_S32x512x1 := by
    dsimp only [V]
    simp only [hostOps0, hostOps0_1, hostOps0_2, List.flatten_cons, List.flatten_nil, List.append_nil, List.cons_append, List.nil_append]
    after_results
    rfl
  rw [e, V_v0, shapeCast_shapeCast]
  exact extractStridedSlice_apply _ _ _ _ (ix3 bi p (1 : Fin 2)) fun a => by
    match a with
    | ⟨0, _⟩ => exact (Nat.zero_add _).symm
    | ⟨1, _⟩ => exact (Nat.zero_add _).symm
    | ⟨2, _⟩ => rfl

/-! ## The joined weight matrix -/

/-- Third k of the weight matrix, transposed: the [1024,2] array whose entry (d, r) is entry (r, 1024 k + d) of the
    [2,3072] matrix. -/
def third (X : FVec Ideal S2x3072 .f32) (k : Fin 3) : FVec Ideal S1024x2 .f32 :=
  fun j => X (ix2 (j 1) ⟨k.val * 1024 + (j 0).val, by have := k.isLt; have := idx2_lt0 j; omega⟩)

/-- The columns [o, o + 1024) of the weight matrix, transposed, are its third k when o = 1024 k. -/
theorem piece_eq (o : Nat) (k : Fin 3) (ho : o = k.val * 1024) (X : FVec Ideal S2x3072 .f32)
    (h : S2x3072.Slices ![0, o] S2x1024) :
    transpose S1024x2 [1, 0] (extractStridedSlice S2x1024 ![0, o] X h) transposes_S2x1024_S1024x2_1_0 = third X k := by
  funext j
  obtain ⟨d, r, rfl⟩ : ∃ d r, j = ix2 d r := ⟨j 0, j 1, eq_ix2 j⟩
  rw [transpose_ix2_apply, slice2_axis1_eq]
  subst ho
  rfl

/-- The three transposed thirds, as the list of pieces a concatenation takes. -/
abbrev thirds (X : FVec Ideal S2x3072 .f32) : List ((s : Shape) × (s.Idx → EReal)) :=
  List.ofFn fun n : Fin 3 => (⟨S1024x2, third X n⟩ : (s : Shape) × (s.Idx → EReal))

/-- Three [1024,2] pieces side by side along the columns make a [1024,6] array. -/
theorem thirds_cat (X : FVec Ideal S2x3072 .f32) : Shape.Concatenates ((thirds X).map (·.1)) S1024x6 1 :=
  concatenates_S1024x2_S1024x2_S1024x2_S1024x6_d1

/-- The joined weight matrix [1024,6] is the three transposed thirds laid side by side along the columns. -/
theorem V_v14_eq : (V m c main_v14 : S1024x6.Idx → EReal)
    = concatenate S1024x6 1 (thirds (a3 m c)) (thirds_cat (a3 m c)) := by
  show _ = concatenate S1024x6 1
        [⟨S1024x2, third (a3 m c) 0⟩, ⟨S1024x2, third (a3 m c) 1⟩, ⟨S1024x2, third (a3 m c) 2⟩]
        concatenates_S1024x2_S1024x2_S1024x2_S1024x6_d1
  rw [← piece_eq 0 0 rfl (a3 m c) slices_S2x3072_S2x1024_0_0, ← piece_eq 1024 1 rfl (a3 m c) slices_S2x3072_S2x1024_0_1024,
    ← piece_eq 2048 2 rfl (a3 m c) slices_S2x3072_S2x1024_0_2048]
  dsimp only [V]
  simp only [hostOps0, hostOps0_1, hostOps0_2, List.flatten_cons, List.flatten_nil, List.append_nil, List.cons_append, List.nil_append]
  simp only [StableHlo.after_cons, StableHlo.after_nil]
  repeat (first
    | rw [Cert.LibNary3.nary3_result] | rw [StableHlo.unary_result] | rw [StableHlo.binary_result] | rw [StableHlo.reshape_result]
    | rw [StableHlo.nullary_result]
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide)
    | (rw [StableHlo.nary_result_ne]; rotate_left; decide))
  rfl

/-- Column col of row d of the joined weight matrix is entry (col mod 2, 1024 (col / 2) + d) of the launched one:
    the column lies in third col / 2, at column col mod 2 of that third. -/
theorem V_v14 (d : Fin 1024) (col : Fin 6) :
    (V m c main_v14 : S1024x6.Idx → EReal) (ix2 d col)
      = a3 m c (ix2 ⟨col.val % 2, by omega⟩ ⟨(col.val / 2) * 1024 + d.val, by have := col.isLt; have := d.isLt; omega⟩) := by
  rw [V_v14_eq]
  exact concatenate_ofFn_apply (t := S1024x6) (s₁ := S1024x2) (1 : Fin 2) (third (a3 m c)) (thirds_cat (a3 m c)) rfl 2 rfl (ix2 d col)
    ⟨col.val / 2, by have := col.isLt; omega⟩ rfl (ix2 d ⟨col.val % 2, by omega⟩) rfl
    (fun b => match b with | ⟨0, _⟩ => fun _ => rfl | ⟨1, _⟩ => fun hb => absurd rfl hb)

end Cert.KernelIdeal.HostVal

end
-- ==== Proof.KIValue.lean ====
/-
  The kernel's result array as one function of the launch contents.

  At the last tile of each batch the stored block is, entry by entry, the score of the specification: the index words
  the kernel reads are the clamped pair indices, which are the pair indices themselves when these lie in the sequence
  range; column `2k + n` of the packed weight matrix is the `k`-th third of weight row `n`; the bias the kernel adds is
  the sum of the two bias vectors. The 32 blocks written back, one per batch, tile the result array.
-/
import proofs.«428122_j71476845740454_3_alg».proof.Proof.KIAccum
import proofs.«428122_j71476845740454_3_alg».proof.Proof.KIHostVal
import proofs.«428122_j71476845740454_3_alg».proof.Proof.Spec

set_option maxRecDepth 16384

noncomputable section

namespace Cert.KernelIdeal.Val

open Cert.KernelIdeal Cert.KernelIdeal.Gen Cert.KernelIdeal.Fr Cert.KernelIdeal.Pay Cert.KernelIdeal.HostVal
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The hidden states as launched. -/
abbrev a0 (c : Dev nD) : FVec Ideal S32x4096x1024 .f32 := m ((c : Thread nD τ).loc main_arg0)

/-- The scores of the specification, of the launch contents. -/
abbrev result (c : Dev nD) : FVec Ideal S32x512x2 .f32 :=
  Cert.Spec.Gfun (a0 m c) (a1 m c) (a2 m c) (a3 m c) (a4 m c) (a5 m c)

variable (c : Dev nD)

theorem arr3_eq : arr3 m c = a0 m c := V_main_arg0 m c

/-- The index words the kernel reads are the pair words, when these are sequence positions. -/
theorem wordL_eq (hr : ∀ i, (a2 m c i).toNat < 4096) (b : Fin 32) (p : Fin 512) :
    wordL m c b p = a2 m c (ix3 b p 0) := by
  show (V m c main_v3 : S32x512x1.Idx → BitVec 32) (ix3 b p 0) = _
  rw [V_v3, clampW_of_lt _ (hr _)]
theorem wordR_eq (hr : ∀ i, (a2 m c i).toNat < 4096) (b : Fin 32) (p : Fin 512) :
    wordR m c b p = a2 m c (ix3 b p 1) := by
  show (V m c main_v6 : S32x512x1.Idx → BitVec 32) (ix3 b p 0) = _
  rw [V_v6, clampW_of_lt _ (hr _)]

/-- Column `2k + n` of the packed weights is the `k`-th third of weight row `n`. -/
theorem wall_eq (d : Fin 1024) (col : Fin 6) (n : Fin 2) (k : Fin 3) (hc : col.val = 2 * k.val + n.val) :
    arr4 m c (ix2 d col) = a3 m c (ix2 n ⟨k.val * 1024 + d.val, by have := k.isLt; have := d.isLt; omega⟩) := by
  show (V m c main_v14 : S1024x6.Idx → EReal) (ix2 d col) = _
  rw [V_v14]
  have e0 : (⟨col.val % 2, by omega⟩ : Fin 2) = n := Fin.ext (by have := n.isLt; show col.val % 2 = n.val; omega)
  have e1 : (⟨col.val / 2 * 1024 + d.val, by have := col.isLt; have := d.isLt; omega⟩ : Fin 3072)
      = ⟨k.val * 1024 + d.val, by have := k.isLt; have := d.isLt; omega⟩ :=
    Fin.ext (by have := n.isLt; show col.val / 2 * 1024 + d.val = k.val * 1024 + d.val; have : col.val / 2 = k.val := by omega
                rw [this])
  rw [e0, e1]

theorem rowSum_eq (b : Fin 32) (w : BitVec 32) (col : Fin 6) (n : Fin 2) (k : Fin 3) (hc : col.val = 2 * k.val + n.val) :
    rowSum m c b w col = Cert.Spec.rowdot (a0 m c) (a3 m c) b (Cert.Spec.pos w) n k := by
  unfold rowSum Cert.Spec.rowdot
  refine Finset.sum_congr rfl fun d _ => ?_
  rw [arr3_eq, wall_eq m c d col n k hc]

theorem pooled_eq (b : Fin 32) (n : Fin 2) :
    (∑ d : Fin 1024, arr0 m c (ix3 b 0 d) * arr4 m c (ix2 d ⟨n.val, by omega⟩)) = Cert.Spec.pooldot (a1 m c) (a3 m c) b n := by
  unfold Cert.Spec.pooldot
  refine Finset.sum_congr rfl fun d _ => ?_
  have e : arr0 m c (ix3 b 0 d) = a1 m c (ix2 b d) := by
    show (V m c main_v7 : S32x1x1024.Idx → EReal) (ix3 b 0 d) = _
    rw [V_v7]
  rw [e, wall_eq m c d ⟨n.val, by omega⟩ n 0 (by show n.val = 2 * 0 + n.val; omega)]
  congr 2
  exact congrArg (ix2 n) (Fin.ext (by show 0 * 1024 + d.val = d.val; omega))

theorem bias_eq (n : Fin 2) : arr5 m c (ix1 n) = a4 m c (ix1 n) + a5 m c (ix1 n) := by
  show (V m c main_v15 : S2.Idx → EReal) (ix1 n) = _
  rw [V_v15]

/-- The stored block at the last tile of a batch is the specification's scores of that batch. -/
theorem out_value (hr : ∀ i, (a2 m c i).toNat < 4096) (t : Fin cfg0.N) (h3 : t.val % 4 = 3) (p : Fin 512) (n : Fin 2) :
    ((outsAt0 m c t.val t.isLt).1 : Vec Ideal S1x512x2 .f32) (ix3 0 p n)
      = Cert.Spec.G (a0 m c) (a1 m c) (a2 m c) (a3 m c) (a4 m c) (a5 m c) (batchOf t) p n := by
  have hL : ∀ b p, (wordL m c b p).toNat < 4096 := fun b p => by rw [wordL_eq m c hr]; exact hr _
  have hR : ∀ b p, (wordR m c b p).toNat < 4096 := fun b p => by rw [wordR_eq m c hr]; exact hr _
  rw [out_last m c hL hR t h3 p n]
  unfold Cert.Spec.G
  rw [rowSum_eq m c _ _ ⟨2 + n.val, by omega⟩ n 1 (by show 2 + n.val = 2 * 1 + n.val; omega),
    rowSum_eq m c _ _ ⟨2 + (2 + n.val), by omega⟩ n 2 (by show 2 + (2 + n.val) = 2 * 2 + n.val; omega),
    pooled_eq, bias_eq, wordL_eq m c hr, wordR_eq m c hr]

/-! ## From the blocks to the array -/

/-- The output window's block index: the batch, and nothing else. -/
theorem idx6_facts : ∀ t : Fin cfg0.N, win0_6.index t (0 : Fin 3) = t.val / 4 ∧ win0_6.index t (1 : Fin 3) = 0 ∧ win0_6.index t (2 : Fin 3) = 0 :=
  (by decide +kernel : ∀ t : Fin grid0.N, win0_6.index t (0 : Fin 3) = t.val / 4 ∧ win0_6.index t (1 : Fin 3) = 0 ∧ win0_6.index t (2 : Fin 3) = 0)

/-- What a last-tile point writes back is its batch's block of the specification's scores. -/
theorem flushed_eq (hr : ∀ i, (a2 m c i).toNat < 4096) (t : Fin cfg0.N) (hf : (cfg0.win 6).flush t = true) :
    (dats m 0 c).flushed 6 t = ((cfg0.win 6).blk t).view.read (Elt Ideal) (result m c) := by
  have h3 : t.val % 4 = 3 := (flush0_6 t).mp hf
  obtain ⟨e0, e1, e2⟩ := idx6_facts t
  show (cfg0.win 6).cut (grid0.coords t) ((dats m 0 c).after 6 t) = _
  rw [after0_6]
  funext j
  have hj0 : (j 0).val < 1 := (j 0).isLt
  have hj1 : (j 1).val < 512 := (j 1).isLt
  have hj2 : (j 2).val < 2 := (j 2).isLt
  show ((outsAt0 m c t.val t.isLt).1 : Vec Ideal S1x512x2 .f32) j = result m c (((cfg0.win 6).blk t).view.emb j)
  have hemb : ((cfg0.win 6).blk t).view.emb j = (ix3 (batchOf t) (⟨(j 1).val, hj1⟩ : Fin 512) (⟨(j 2).val, hj2⟩ : Fin 2) : S32x512x2.Idx) := by
    funext a; apply Fin.ext
    match a with
    | ⟨0, _⟩ => show win0_6.index t (0 : Fin 3) * 1 + 1 * (j 0).val = t.val / 4; omega
    | ⟨1, _⟩ => show win0_6.index t (1 : Fin 3) * 512 + 1 * (j 1).val = (j 1).val; omega
    | ⟨2, _⟩ => show win0_6.index t (2 : Fin 3) * 2 + 1 * (j 2).val = (j 2).val; omega
  have hjx : j = (ix3 (0 : Fin 1) (⟨(j 1).val, hj1⟩ : Fin 512) (⟨(j 2).val, hj2⟩ : Fin 2) : S1x512x2.Idx) := by
    funext a; apply Fin.ext
    match a with
    | ⟨0, _⟩ => show (j 0).val = 0; omega
    | ⟨1, _⟩ => rfl
    | ⟨2, _⟩ => rfl
  rw [hemb]
  show _ = Cert.Spec.Gfun (a0 m c) (a1 m c) (a2 m c) (a3 m c) (a4 m c) (a5 m c) (ix3 (batchOf t) (⟨(j 1).val, hj1⟩ : Fin 512) (⟨(j 2).val, hj2⟩ : Fin 2))
  rw [Cert.Spec.Gfun_ix3]
  exact (congrArg ((outsAt0 m c t.val t.isLt).1 : Vec Ideal S1x512x2 .f32) hjx).trans (out_value m c hr t h3 _ _)

/-- An index of the result array lies in point `t`'s block iff its batch coordinate is the point's batch. -/
theorem mem_blk6 (t : Fin cfg0.N) (i : S32x512x2.Idx) :
    i ∈ ((cfg0.win 6).blk t).view.set ↔ ∀ a : Fin 3, win0_6.index t a * S1x512x2.size a ≤ (i a).val ∧ (i a).val < win0_6.index t a * S1x512x2.size a + S1x512x2.size a := by
  show i ∈ ((View.whole main_v16).slice (win0_6.rect t)).set ↔ _
  rw [View.set_slice_whole, Rect.mem_set_unit]
  exact Iff.rfl

/-- Every index of the result array is in the block some last-tile point writes back. -/
theorem cover6 (i : S32x512x2.Idx) : ∃ t : Fin cfg0.N, (cfg0.win 6).flush t = true ∧ i ∈ ((cfg0.win 6).blk t).view.set := by
  have hN : cfg0.N = 128 := N_0
  have hi0 : (i 0).val < 32 := (i 0).isLt
  have hi1 : (i 1).val < 512 := (i 1).isLt
  have hi2 : (i 2).val < 2 := (i 2).isLt
  let t : Fin cfg0.N := ⟨4 * (i 0).val + 3, by omega⟩
  obtain ⟨e0, e1, e2⟩ := idx6_facts t
  have ht : t.val = 4 * (i 0).val + 3 := rfl
  refine ⟨t, (flush0_6 t).mpr (by omega), ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 2 ≤ (i 2).val ∧ (i 2).val < win0_6.index t (2 : Fin 3) * 2 + 2; omega

/-- The result array after the run is the specification's scores. -/
theorem final (hr : ∀ i, (a2 m c i).toNat < 4096) : (dats m 0 c).arrAt 6 cfg0.N = result m c :=
  (dats m 0 c).arrAt_eq_of_cover 6 (result m c) (flushed_eq m c hr) cover6

/-! ## The run, read -/

/-- Every weakly fair execution of the idealized kernel's program ends with the result array at the specification's
    scores and the arguments as launched. -/
theorem run (hr : ∀ (c : Dev nD) i, (a2 m c i).toNat < 4096) :
    θ_run defs (onTc (τ := τ) (main (F := Ideal))) ⟨m, fun _ => 0, ρ⟩ fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 6).trans (final m c (hr c)),
      ((h c).1 3).trans (((dats m 0 c).arrAt_in 3 rfl _).trans ((A_eq m c 3).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.Val

end
-- ==== Proof.LibAllOnes.lean ====
/-
  Two readings a fill-mode `take` needs that the library states only one way round.

  * An `and`-reduction started at 1 over an array of `i1` words that are all 1 is 1 at every result index
    (`reduce_andi_of_all`): the converse of the library's reading of `jnp.all`, by the same fold.
  * A length-`m` vector laid along the second axis of an [n × m] rectangle in ONE broadcast (dimension map `[1]`)
    reads, at (p, q), the vector at `q` (`bcast_axis1`).
-/
import Idealize.ShloMosaic.Lib.ReduceAll
import Idealize.ShloMosaic.Lib.StableHlo.Predicate

noncomputable section

namespace Cert.LibAllOnes

open Idealize.ShloMosaic Idealize.ShloMosaic.StableHlo.Predicate

/-- A left fold by `and` from 1 over 1s is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a (List.mem_cons_self ..)
    have h11 : IntOp.andi 1#1 1#1 = 1#1 := by decide
    rw [List.foldl_cons, ha, h11]
    exact foldl_andi_one f l (fun n hn => h n (List.mem_cons_of_mem _ hn))

/-- An `and`-reduction from 1 of an array whose every element is 1 is 1 at every result index. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ (fun i _ => hx i)

/-- A vector laid along the second axis of an [n × m] rectangle by one broadcast reads, at (p, q), the vector at `q`. -/
theorem bcast_axis1 {α : Type} {n m : Nat} (h : (⟨1, ![m]⟩ : Shape).BroadcastsInDim ⟨2, ![n, m]⟩ ![1])
    (v : (⟨1, ![m]⟩ : Shape).Idx → α) (p : Fin n) (q : Fin m) :
    broadcastInDim ⟨2, ![n, m]⟩ ![1] h v (ij p q) = v (Shape.Idx.ofFin q) := by
  simp only [broadcastInDim]
  congr 1
  funext a
  have ha : a = 0 := Subsingleton.elim _ _
  subst ha
  apply Fin.ext
  have hq := q.isLt
  split
  · next h1 => change m = 1 at h1; show (0 : Nat) = q.val; omega
  · rfl

end Cert.LibAllOnes

end
-- ==== Proof.RefSpec.lean ====
/-
  The reference program computes the specification's function.

  The reference reads, for batch bi and pair p, the two words of the pair; each is wrapped (4096 is added where the
  word is negative), tested for 0 ≤ w ≤ 4095, used as the start row of a batched row gather out of the hidden states
  (the start read signed and clamped into [0, 4095]), and the gathered row is kept where the test passed. Under the
  hypothesis that every pair word is below 4096 (as an unsigned number) a word is non-negative as a signed one: the
  wrap returns it, the test passes, its and-reduction over the unit axis is 1, the clamp returns it, and the row read
  is hidden[bi, pos w]. The features are the pooled state, the left row and the right row laid end to end (3 × 1024
  columns); the contraction with a weight row over the 3072 columns is the sum of its three blocks of 1024 — an
  identity of finite sums in the commutative monoid (EReal, +), with no finiteness asked of any term — and the two
  biases are added. Re-associating gives the specification's score.
-/
import proofs.«428122_j71476845740454_3_alg».proof.Proof.RefRead
import proofs.«428122_j71476845740454_3_alg».proof.Proof.Spec
import proofs.«428122_j71476845740454_3_alg».proof.Proof.LibAllOnes
import Idealize.ShloMosaic.Lib.StableHlo.Predicate
import Idealize.ShloMosaic.Lib.ValueIdx
import Idealize.ShloMosaic.Lib.Pipeline.Value
import Idealize.ShloMosaic.Lib.Affine
import Mathlib.Algebra.BigOperators.Fin

noncomputable section

namespace Cert.RefSpec

open Idealize.ShloMosaic Idealize.ShloMosaic.ValueIdx Cert.ReferenceIdeal Cert.ReferenceIdeal.Gen Cert.ReferenceIdeal.ReadP
open Idealize.ShloMosaic.StableHlo.Predicate

/-! ## The index words -/

/-- The index word the first gather reads: the pair's first word. -/
theorem v4_at (x2 : IVec S32x512x2 32) (bi : Fin 32) (p : Fin 512) :
    val_main_v4 (F := Ideal) x2 (ix3 bi p (0 : Fin 1)) = x2 (ix3 bi p (0 : Fin 2)) := by
  rw [val_main_v4_apply, val_main_v1_apply, val_main_v0_apply]
  congr 1
  funext a
  match a with
  | ⟨0, _⟩ => exact Fin.ext (by show (bi.val * 512 + p.val) / 512 = bi.val; have := p.isLt; omega)
  | ⟨1, _⟩ => exact Fin.ext (by show (bi.val * 512 + p.val) / 1 % 512 = p.val; have := p.isLt; omega)
  | ⟨2, _⟩ => exact Fin.ext (by show (0 : Nat) = 0; rfl)

/-- The index word the second gather reads: the pair's second word. -/
theorem v6_at (x2 : IVec S32x512x2 32) (bi : Fin 32) (p : Fin 512) :
    val_main_v6 (F := Ideal) x2 (ix3 bi p (0 : Fin 1)) = x2 (ix3 bi p (1 : Fin 2)) := by
  rw [val_main_v6_apply, val_main_v3_apply, val_main_v2_apply]
  congr 1
  funext a
  match a with
  | ⟨0, _⟩ => exact Fin.ext (by show (bi.val * 512 + p.val) / 512 = bi.val; have := p.isLt; omega)
  | ⟨1, _⟩ => exact Fin.ext (by show (bi.val * 512 + p.val) / 1 % 512 = p.val; have := p.isLt; omega)
  | ⟨2, _⟩ => exact Fin.ext (by show (1 + 0 : Nat) = 1; rfl)

/-- A word below 4096 is not negative, so the wrap "add 4096 where negative" leaves it alone. -/
theorem wrap_id (w : BitVec 32) (h : w.toNat < 4096) :
    Scalar.select (IntOp.cmpi .slt w 0#32) (IntOp.addi w 4096#32) w = w := by
  have hz : IntOp.cmpi .slt w 0#32 = 0#1 := eq_zero_of_ne_one (fun h1 => by
    have h2 := (slt_iff_toNat (a := w) (b := 0#32) (by omega) (by decide)).mp h1
    have h0 : (0#32 : BitVec 32).toNat = 0 := rfl
    omega)
  rw [hz, select_zero]

/-- A word below 4096 passes the range test 0 ≤ w ≤ 4095. -/
theorem mask_bits (w : BitVec 32) (h : w.toNat < 4096) :
    IntOp.andi (IntOp.cmpi .sge w 0#32) (IntOp.cmpi .sle w 4095#32) = 1#1 := by
  have h0 : (0#32 : BitVec 32).toNat = 0 := rfl
  have h1 : (4095#32 : BitVec 32).toNat = 4095 := rfl
  rw [IntOp.andi_eq_one]
  exact ⟨(sge_iff_toNat (by omega) (by omega)).mpr (by omega), (sle_iff_toNat (by omega) (by omega)).mpr (by omega)⟩

/-! ## The wrap and the range mask under the hypothesis -/

section Words
variable (x2 : IVec S32x512x2 32) (hr : ∀ i : S32x512x2.Idx, (x2 i).toNat < 4096)
include hr

/-- First call: the wrapped index word is the pair's first word. -/
theorem call0_v4_at (bi : Fin 32) (p : Fin 512) :
    val_main_call0_v4 (F := Ideal) x2 (ix3 bi p (0 : Fin 1)) = x2 (ix3 bi p (0 : Fin 2)) := by
  rw [val_main_call0_v4_apply, val_main_call0_v1_apply, val_main_call0_v3_apply, v4_at]
  exact wrap_id _ (hr _)

/-- Second call: the wrapped index word is the pair's second word. -/
theorem call1_v4_at (bi : Fin 32) (p : Fin 512) :
    val_main_call1_v4 (F := Ideal) x2 (ix3 bi p (0 : Fin 1)) = x2 (ix3 bi p (1 : Fin 2)) := by
  rw [val_main_call1_v4_apply, val_main_call1_v1_apply, val_main_call1_v3_apply, v6_at]
  exact wrap_id _ (hr _)

theorem call0_v10_one (i : S32x512x1.Idx) : val_main_call0_v10 (F := Ideal) x2 i = 1#1 := by
  obtain ⟨bi, p, z, rfl⟩ : ∃ (bi : Fin 32) (p : Fin 512) (z : Fin 1), i = ix3 bi p z := ⟨i 0, i 1, i 2, eq_ix3 i⟩
  obtain rfl : z = 0 := Subsingleton.elim _ _
  rw [val_main_call0_v10_apply, val_main_call0_v6_apply, val_main_call0_v9_apply, call0_v4_at x2 hr]
  exact mask_bits _ (hr _)

theorem call1_v10_one (i : S32x512x1.Idx) : val_main_call1_v10 (F := Ideal) x2 i = 1#1 := by
  obtain ⟨bi, p, z, rfl⟩ : ∃ (bi : Fin 32) (p : Fin 512) (z : Fin 1), i = ix3 bi p z := ⟨i 0, i 1, i 2, eq_ix3 i⟩
  obtain rfl : z = 0 := Subsingleton.elim _ _
  rw [val_main_call1_v10_apply, val_main_call1_v6_apply, val_main_call1_v9_apply, call1_v4_at x2 hr]
  exact mask_bits _ (hr _)

/-- The in-range mask, and-reduced over its unit axis and laid over the row, is 1 everywhere. -/
theorem call0_v13_one (i : S32x512x1024.Idx) : val_main_call0_v13 (F := Ideal) x2 i = 1#1 := by
  rw [val_main_call0_v13_apply]
  unfold val_main_call0_v11
  exact Cert.LibAllOnes.reduce_andi_of_all _ _ _ _ _ rfl (call0_v10_one x2 hr)

theorem call1_v13_one (i : S32x512x1024.Idx) : val_main_call1_v13 (F := Ideal) x2 i = 1#1 := by
  rw [val_main_call1_v13_apply]
  unfold val_main_call1_v11
  exact Cert.LibAllOnes.reduce_andi_of_all _ _ _ _ _ rfl (call1_v10_one x2 hr)

end Words

/-! ## The batched row gather read at an index -/

section Gather
variable (idx : IVec S32x512x1 32) (bi : Fin 32) (p : Fin 512) (d : Fin 1024)

/-- The dimension numbers of the two row gathers. -/
abbrev GD : GatherDims S32x4096x1024 S32x512x1 S32x512x1024 := gather_S32x4096x1024_S32x512x1_S32x512x1024_2_1_0_0_1_2_111024

/-- Operand axis 0 is the batching axis: the operand index there is the result's batch coordinate. -/
theorem gather_axis0 :
    GD.start (ix3 bi p d) idx 0 + GD.batchCoord (ix3 bi p d) 0 + GD.offCoord (ix3 bi p d) 0 = bi.val := by
  have hb : (0 : Fin S32x4096x1024.rank) ∈ GD.operandBatchingDims := by decide
  rw [GatherDims.start_batching _ _ _ _ hb,
    GatherDims.offCoord_eq_zero _ _ _ (fun h => ((GatherDims.mem_sKept _ _).mp h).2 hb), Nat.zero_add, Nat.add_zero]
  unfold GatherDims.batchCoord
  rw [dif_pos hb]
  rfl

/-- Operand axis 1 is the collapsed, indexed axis: the operand index there is the start word read signed and clamped
    into [0, 4095]. -/
theorem gather_axis1 :
    GD.start (ix3 bi p d) idx 1 + GD.batchCoord (ix3 bi p d) 1 + GD.offCoord (ix3 bi p d) 1
      = min (idx (ix3 bi p (0 : Fin 1))).toInt.toNat 4095 := by
  have hc : (1 : Fin S32x4096x1024.rank) ∈ GD.collapsedSliceDims := by decide
  have hm : (1 : Fin S32x4096x1024.rank) ∈ GD.startIndexMap := by decide
  rw [GatherDims.batchCoord_eq_zero _ _ _ (by decide),
    GatherDims.offCoord_eq_zero _ _ _ (fun h => ((GatherDims.mem_sKept _ _).mp h).1 hc)]
  simp only [Nat.add_zero]
  unfold GatherDims.start
  rw [dif_pos hm]
  have hsi : GD.siIdx (ix3 bi p d) ⟨List.idxOf (1 : Fin S32x4096x1024.rank) GD.startIndexMap, List.idxOf_lt_length_iff.2 hm⟩
      = ix3 bi p (0 : Fin 1) := by
    funext b; refine Fin.ext ?_
    match b with
    | ⟨0, _⟩ => rfl
    | ⟨1, _⟩ => rfl
    | ⟨2, _⟩ => rfl
  rw [hsi]
  rfl

/-- Operand axis 2 is the offset axis: the operand index there is the result's column. -/
theorem gather_axis2 :
    GD.start (ix3 bi p d) idx 2 + GD.batchCoord (ix3 bi p d) 2 + GD.offCoord (ix3 bi p d) 2 = d.val := by
  have hk : (2 : Fin S32x4096x1024.rank) ∈ GD.sKept := by decide
  rw [GatherDims.batchCoord_eq_zero _ _ _ (by decide), Nat.add_zero]
  unfold GatherDims.start GatherDims.offCoord
  rw [dif_neg (by decide), dif_pos hk, Nat.zero_add]
  rfl

/-- The batched row gather (batch axis 0 paired with the start indices' axis 0, one start component for axis 1,
    whole rows of 1024 as the offset axis) read at (bi, p, d): batch bi, the row the start word names — read signed
    and clamped into [0, 4095] —, column d. -/
theorem gather_at (x0 : FVec Ideal S32x4096x1024 .f32)
    (r : Fin 4096) (hrow : min (idx (ix3 bi p (0 : Fin 1))).toInt.toNat 4095 = r.val) :
    Host.gather GD x0 idx (ix3 bi p d) = x0 (ix3 bi r d) := by
  unfold Host.gather
  congr 1
  funext a
  refine Fin.ext ?_
  match a with
  | ⟨0, _⟩ => exact gather_axis0 idx bi p d
  | ⟨1, _⟩ => exact (gather_axis1 idx bi p d).trans hrow
  | ⟨2, _⟩ => exact gather_axis2 idx bi p d

end Gather

/-! ## The gathered rows and the pooled state -/

/-- A word below 4096, read signed and clamped into [0, 4095], is the position it names. -/
theorem clamp_pos (w : BitVec 32) (h : w.toNat < 4096) : min w.toInt.toNat 4095 = (Cert.Spec.pos w).val := by
  rw [Cert.Spec.pos_val_of_lt _ h, toInt_eq_toNat_of_lt (by omega), Int.toNat_natCast]
  omega

section Rows
variable (x0 : FVec Ideal S32x4096x1024 .f32) (x2 : IVec S32x512x2 32) (hr : ∀ i : S32x512x2.Idx, (x2 i).toNat < 4096)
include hr

/-- The left rows: the mask is 1, so the select returns the gathered row — hidden at the position the pair's first
    word names. -/
theorem v5_at (bi : Fin 32) (p : Fin 512) (d : Fin 1024) :
    val_main_v5 (F := Ideal) x0 x2 (ix3 bi p d) = x0 (ix3 bi (Cert.Spec.pos (x2 (ix3 bi p (0 : Fin 2)))) d) := by
  rw [val_main_v5_apply, call0_v13_one x2 hr, select_one]
  unfold val_main_call0_v12
  refine gather_at _ bi p d x0 _ ?_
  rw [call0_v4_at x2 hr]
  exact clamp_pos _ (hr _)

/-- The right rows: hidden at the position the pair's second word names. -/
theorem v7_at (bi : Fin 32) (p : Fin 512) (d : Fin 1024) :
    val_main_v7 (F := Ideal) x0 x2 (ix3 bi p d) = x0 (ix3 bi (Cert.Spec.pos (x2 (ix3 bi p (1 : Fin 2)))) d) := by
  rw [val_main_v7_apply, call1_v13_one x2 hr, select_one]
  unfold val_main_call1_v12
  refine gather_at _ bi p d x0 _ ?_
  rw [call1_v4_at x2 hr]
  exact clamp_pos _ (hr _)

end Rows

/-- The pooled state laid over the pairs. -/
theorem v9_at (x1 : FVec Ideal S32x1024 .f32) (bi : Fin 32) (p : Fin 512) (d : Fin 1024) :
    val_main_v9 (F := Ideal) x1 (ix3 bi p d) = x1 (ix2 bi d) := by
  rw [val_main_v9_apply, val_main_v8_apply]
  congr 1
  funext a
  match a with
  | ⟨0, _⟩ => rfl
  | ⟨1, _⟩ => rfl

/-! ## The joined features -/

section Feats
variable (x0 : FVec Ideal S32x4096x1024 .f32) (x1 : FVec Ideal S32x1024 .f32) (x2 : IVec S32x512x2 32)

/-- The three pieces the features are joined from, in order: pooled (laid over the pairs), left rows, right rows. -/
abbrev pieces : List ((s : Shape) × (s.Idx → EReal)) :=
  [⟨S32x512x1024, val_main_v9 (F := Ideal) x1⟩, ⟨S32x512x1024, val_main_v5 (F := Ideal) x0 x2⟩,
    ⟨S32x512x1024, val_main_v7 (F := Ideal) x0 x2⟩]

/-- The joined features read at column c = k·1024 + d: piece k at column d. -/
theorem v10_piece (bi : Fin 32) (p : Fin 512) (d : Fin 1024) (k : Nat) (hk : k < (pieces x0 x1 x2).length)
    (X : S32x512x1024.Idx → EReal) (hX : (pieces x0 x1 x2)[k] = ⟨S32x512x1024, X⟩)
    (c : Fin 3072) (hc : c.val = k * 1024 + d.val) :
    val_main_v10 (F := Ideal) x0 x1 x2 (ix3 bi p c) = X (ix3 bi p d) := by
  unfold val_main_v10
  refine concatenate_apply_piece (2 : Fin S32x512x3072.rank) (pieces x0 x1 x2) _ _ k hk S32x512x1024 X hX rfl (k * 1024) ?_
    (ix3 bi p d) ?_ ?_
  · have hk3 : k < 3 := hk
    interval_cases k <;> rfl
  · intro b hb
    match b with
    | ⟨0, _⟩ => rfl
    | ⟨1, _⟩ => rfl
    | ⟨2, _⟩ => exact absurd rfl hb
  · exact hc.symm

end Feats

/-! ## The contraction in three blocks, and the biases -/

/-- A sum over 3·q consecutive numbers is the sum of its three blocks of q (in any commutative monoid). -/
theorem sum_three {M : Type*} [AddCommMonoid M] (q : ℕ) (f : Fin (q + q + q) → M) :
    ∑ k, f k = (∑ d : Fin q, f ⟨d.val, by have := d.isLt; omega⟩) + (∑ d : Fin q, f ⟨q + d.val, by have := d.isLt; omega⟩)
      + ∑ d : Fin q, f ⟨q + q + d.val, by have := d.isLt; omega⟩ := by
  rw [Fin.sum_univ_add, Fin.sum_univ_add]
  rfl

section Scores
variable (x0 : FVec Ideal S32x4096x1024 .f32) (x1 : FVec Ideal S32x1024 .f32) (x2 : IVec S32x512x2 32)
  (x3 : FVec Ideal S2x3072 .f32) (hr : ∀ i : S32x512x2.Idx, (x2 i).toNat < 4096)
include hr

/-- The contraction over the 3072 feature columns, split into its three blocks: the pooled state, the left row and
    the right row, each against its third of the weight row. -/
theorem v11_at (bi : Fin 32) (p : Fin 512) (n : Fin 2) :
    val_main_v11 (F := Ideal) x0 x1 x2 x3 (ix3 bi p n)
      = Cert.Spec.pooldot x1 x3 bi n + Cert.Spec.rowdot x0 x3 bi (Cert.Spec.pos (x2 (ix3 bi p (0 : Fin 2)))) n 1
        + Cert.Spec.rowdot x0 x3 bi (Cert.Spec.pos (x2 (ix3 bi p (1 : Fin 2)))) n 2 := by
  rw [val_main_v11_apply]
  have hl : ∀ k : Fin 3072, lidx_main_v11 (ix3 bi p n) k = ix3 bi p k := fun k => by
    funext a
    match a with
    | ⟨0, _⟩ => rfl
    | ⟨1, _⟩ => rfl
    | ⟨2, _⟩ => rfl
  have hri : ∀ k : Fin 3072, ridx_main_v11 (ix3 bi p n) k = ix2 n k := fun k => by
    funext a
    match a with
    | ⟨0, _⟩ => rfl
    | ⟨1, _⟩ => rfl
  simp only [hl, hri]
  refine (sum_three 1024 (fun k : Fin 3072 => val_main_v10 (F := Ideal) x0 x1 x2 (ix3 bi p k) * x3 (ix2 n k))).trans ?_
  unfold Cert.Spec.pooldot Cert.Spec.rowdot
  refine congrArg₂ (· + ·) (congrArg₂ (· + ·) ?_ ?_) ?_
  · refine Finset.sum_congr rfl fun d _ => ?_
    show val_main_v10 (F := Ideal) x0 x1 x2 (ix3 bi p _) * x3 (ix2 n _) = _
    rw [v10_piece x0 x1 x2 bi p d 0 (show 0 < 3 by decide) _ rfl _ (by show d.val = 0 * 1024 + d.val; omega), v9_at]
  · refine Finset.sum_congr rfl fun d _ => ?_
    show val_main_v10 (F := Ideal) x0 x1 x2 (ix3 bi p _) * x3 (ix2 n _) = _
    rw [v10_piece x0 x1 x2 bi p d 1 (show 1 < 3 by decide) _ rfl _ (by show 1024 + d.val = 1 * 1024 + d.val; omega), v5_at x0 x2 hr]
    rfl
  · refine Finset.sum_congr rfl fun d _ => ?_
    show val_main_v10 (F := Ideal) x0 x1 x2 (ix3 bi p _) * x3 (ix2 n _) = _
    rw [v10_piece x0 x1 x2 bi p d 2 (show 2 < 3 by decide) _ rfl _ (by show 1024 + 1024 + d.val = 2 * 1024 + d.val; omega), v7_at x0 x2 hr]
    rfl

end Scores

section Result
variable (x0 : FVec Ideal S32x4096x1024 .f32) (x1 : FVec Ideal S32x1024 .f32) (x2 : IVec S32x512x2 32)
  (x3 : FVec Ideal S2x3072 .f32) (x4 x5 : FVec Ideal S2 .f32) (hr : ∀ i : S32x512x2.Idx, (x2 i).toNat < 4096)
include hr

/-- The reference's score of pair p of batch bi for class n is the specification's: the three block sums and the two
    biases, re-associated in the commutative monoid of the extended reals. -/
theorem v17_at (bi : Fin 32) (p : Fin 512) (n : Fin 2) :
    val_main_v17 (F := Ideal) x0 x1 x2 x3 x4 x5 (ix3 bi p n) = Cert.Spec.G x0 x1 x2 x3 x4 x5 bi p n := by
  rw [val_main_v17_apply, val_main_v14_apply, val_main_v13_apply, val_main_v12_apply, val_main_v16_apply,
    val_main_v15_apply, v11_at x0 x1 x2 x3 hr]
  have e4 : idx_main_v12 (idx_main_v13 (ix3 bi p n)) = ix1 n := by
    funext a
    match a with
    | ⟨0, _⟩ => rfl
  have e5 : idx_main_v15 (idx_main_v16 (ix3 bi p n)) = ix1 n := by
    funext a
    match a with
    | ⟨0, _⟩ => rfl
  rw [e4, e5]
  unfold Cert.Spec.G
  show ((_ + _ + _ : EReal) + _) + _ = ((_ + _) + _) + (_ + _)
  ac_rfl

end Result

/-- The reference program computes the specification's array of scores, whenever every pair word is a position. -/
theorem ref_eq (x0 : FVec Ideal S32x4096x1024 .f32) (x1 : FVec Ideal S32x1024 .f32) (x2 : IVec S32x512x2 32)
    (x3 : FVec Ideal S2x3072 .f32) (x4 x5 : FVec Ideal S2 .f32)
    (hr : ∀ i : S32x512x2.Idx, (x2 i).toNat < 4096) :
    Cert.ReferenceIdeal.ReadP.val_main_v17 (F := Ideal) x0 x1 x2 x3 x4 x5 = Cert.Spec.Gfun x0 x1 x2 x3 x4 x5 := by
  funext j
  obtain ⟨bi, p, n, rfl⟩ : ∃ (bi : Fin 32) (p : Fin 512) (n : Fin 2), j = ix3 bi p n := ⟨j 0, j 1, j 2, eq_ix3 j⟩
  rw [Cert.Spec.Gfun_ix3]
  exact v17_at x0 x1 x2 x3 x4 x5 hr bi p n

end Cert.RefSpec

end
-- ==== Proof.PreDecode.lean ====
/-
  The printed precondition, read back at one pair word. The precondition is a conjunction of reductions by "and" over
  all axes; its last conjunct reduces, over every index of the [32, 512, 2] array of pair words, the test
  (0 ≤ w signed) and (w < 4096 signed). If the whole conjunction is 1, that last reduction is 1, so the test is 1 at
  every index; a 32-bit word w with 0 ≤ w.toInt < 4096 has w.toNat = w.toInt, hence w.toNat < 4096: every pair word
  is a position of the length-4096 sequence.
-/
import proofs.«428122_j71476845740454_3_alg».proof.Proof.Gen.Pre_finite_inputs
import Idealize.ShloMosaic.Lib.ReduceAll
import Idealize.ShloMosaic.Lib.ValueIdx

noncomputable section

namespace Cert.PreDecode

open Idealize.ShloMosaic

/-- The scalar shape has exactly one index: an index is a function out of the empty set of axes. -/
instance subsingleton_scalar_idx : Subsingleton Cert.Pre_finite_inputs.S_.Idx :=
  ⟨fun a b => funext fun d => d.elim0⟩

/-- A 32-bit word that tests 0 ≤ w and w < 4096, both signed, is below 4096 read unsigned: nonnegative signed means
    the top bit is clear, so the signed and unsigned readings agree. -/
theorem toNat_lt_of_signed_range (w : BitVec 32) (h0 : IntOp.cmpi .sge w 0#32 = 1#1)
    (h1 : IntOp.cmpi .slt w 4096#32 = 1#1) : w.toNat < 4096 := by
  rw [IntOp.cmpi_sge, show (0#32 : BitVec 32).toInt = 0 from by decide] at h0
  rw [IntOp.cmpi_slt, show (4096#32 : BitVec 32).toInt = 4096 from by decide] at h1
  have htop : 2 * w.toNat < 2 ^ 32 := BitVec.toInt_pos_iff.1 h0
  rw [BitVec.toInt_eq_toNat_of_lt htop] at h1
  omega

/-- The precondition decoded at a pair word: it is a sequence position, below 4096. -/
theorem pairs_lt {F : FTy → Type} [FloatOps F] (x0 : FVec F Cert.Pre_finite_inputs.S32x4096x1024 .f32)
    (x1 : FVec F Cert.Pre_finite_inputs.S32x1024 .f32) (x2 : IVec Cert.Pre_finite_inputs.S32x512x2 32)
    (x3 : FVec F Cert.Pre_finite_inputs.S2x3072 .f32) (x4 x5 : FVec F Cert.Pre_finite_inputs.S2 .f32)
    (h : Cert.Pre_finite_inputs.fn (F := F) x0 x1 x2 x3 x4 x5 = fun _ => 1#1)
    (i : Cert.Pre_finite_inputs.S32x512x2.Idx) : (x2 i).toNat < 4096 := by
  -- the one word of the scalar result
  have e := congrFun h ValueIdx.ix0
  dsimp only [Cert.Pre_finite_inputs.fn, Cert.Pre_finite_inputs.fn_part1] at e
  -- the outermost "and": its right operand is the reduction over the pair words
  have e29 := (IntOp.andi_eq_one.1 e).2
  -- a reduction by "and" over all axes that is 1 had a 1 at every index
  have ei := Host.reduce_andi_all _ _ _ _ _ e29 i
  -- at index i the test is (0 ≤ w) and (w < 4096) on the word w = x2 i, the two bounds being broadcast constants
  obtain ⟨h0, h1⟩ := IntOp.andi_eq_one.1 ei
  exact toNat_lt_of_signed_range (x2 i) h0 h1

end Cert.PreDecode

end
-- ==== Proof.lean ====
/-
  A classification head over pairs of sequence positions: for batch `bi`, pair `p` and class `n` the score is
    ⟨hidden[bi, L], W[n, 1024 … 2047]⟩ + ⟨hidden[bi, R], W[n, 2048 … 3071]⟩ + ⟨pooled[bi], W[n, 0 … 1023]⟩ + b[n] + extra[n],
  `L` and `R` the two positions the pair names (Proof/Spec.lean).

  The reference gathers the two hidden rows, joins them with the pooled row into one row of 3072 features and
  contracts it with the weight row. The kernel never gathers: it streams each batch's hidden states in four tiles of
  1024 rows, projects every row of a tile onto four packed weight columns, and selects the pair's rows by multiplying
  with a one-hot matrix (a row of the tile is selected iff its absolute position equals the index word), summing the
  selections over the tiles in two accumulators; the last tile adds the pooled projection and the bias and stores the
  block. On the extended reals the two agree because `0 · x = 0` and `1 · x = x` for every `x`, a sequence position lies
  in exactly one tile, and addition is commutative and associative: no finiteness of the inputs is used. What is used
  of the precondition is that every pair index is a sequence position (0 ≤ index < 4096): outside that range the
  reference wraps or fills and the kernel clamps, and the two differ.

  The three frames: each kernel program's from its run through the pipeline (Proof/KFrame.lean, Proof/KIFrame.lean), the
  reference's from its run read back.
-/
import proofs.«428122_j71476845740454_3_alg».proof.Defs
import proofs.«428122_j71476845740454_3_alg».proof.Proof.Gen.Kernel
import proofs.«428122_j71476845740454_3_alg».proof.Proof.Gen.KernelIdeal
import proofs.«428122_j71476845740454_3_alg».proof.Proof.Gen.ReferenceIdeal
import proofs.«428122_j71476845740454_3_alg».proof.Proof.Gen.Pre_finite_inputs
import proofs.«428122_j71476845740454_3_alg».proof.Proof.KFrame
import proofs.«428122_j71476845740454_3_alg».proof.Proof.KIValue
import proofs.«428122_j71476845740454_3_alg».proof.Proof.RefRead
import proofs.«428122_j71476845740454_3_alg».proof.Proof.RefSpec
import proofs.«428122_j71476845740454_3_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end with the specification's scores of the arguments they agree on. -/
theorem algebraic : Cert.algebraic_KernelIdeal_ReferenceIdeal := by
  intro m ρ m' ρ' hpre hagree
  have hr : ∀ (c : Dev Cert.KernelIdeal.nD) i, (Cert.KernelIdeal.HostVal.a2 m c i).toNat < 4096 := fun c i =>
    Cert.PreDecode.pairs_lt _ _ _ _ _ _ (hpre c) i
  refine ⟨fun c => Cert.KernelIdeal.Val.result m c, Cert.KernelIdeal.Val.run m ρ hr, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v17_eq, (hagree c).1, (hagree c).2.1, (hagree c).2.2.1, (hagree c).2.2.2.1,
    (hagree c).2.2.2.2.1, (hagree c).2.2.2.2.2]
  exact Cert.RefSpec.ref_eq _ _ _ _ _ _ (hr c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
